-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S65536x256 : Shape := ⟨2, ![65536, 256]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S65536x1000 .f32) (main_arg1 : IVec S65536 32) (main_arg2 : FVec F S65536x256 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S65536x256 .f32 := Host.absf main_arg2
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg1 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_c_4 : IVec S_ 32 := constantI S_ 32 1000#32
  let main_v13 : IVec S65536 32 := broadcastInDim S65536 ![] bcast_S_S65536 main_c_4
  let main_v14 : IVec S65536 1 := cmpi .slt main_arg1 main_v13
  let main_c_5 : IVec S_ 1 := constantI S_ 1 1#1
  let main_v15 : IVec S_ 1 := (fun x v => Host.reduce IntOp.andi x v reducesTo_S65536_S_d0 h_S_) main_v14 main_c_5
  fn_part1 (F := F) main_v12 main_v15
-- ==== Kernel.lean ====
abbrev S65536x1000 : Shape := ⟨2, ![65536, 1000]⟩
abbrev S65536 : Shape := ⟨1, ![65536]⟩
abbrev S65536x256 : Shape := ⟨2, ![65536, 256]⟩
abbrev S65536x1 : Shape := ⟨2, ![65536, 1]⟩
abbrev S16x128 : Shape := ⟨2, ![16, 128]⟩
abbrev S2048x1000 : Shape := ⟨2, ![2048, 1000]⟩
abbrev S2048x1 : Shape := ⟨2, ![2048, 1]⟩
abbrev S8x128 : Shape := ⟨2, ![8, 128]⟩
abbrev S2048 : Shape := ⟨1, ![2048]⟩
abbrev S1 : Shape := ⟨1, ![1]⟩
abbrev S1x1 : Shape := ⟨2, ![1, 1]⟩
abbrev S_ : Shape := ⟨0, ![]⟩
abbrev S4096x256 : Shape := ⟨2, ![4096, 256]⟩
abbrev S4096 : Shape := ⟨1, ![4096]⟩
abbrev S4096x1 : Shape := ⟨2, ![4096, 1]⟩

abbrev nBuf : Space → Nat
  | .hbm => 35
  | .vmem => 12
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x256, .f32⟩
  | .hbm, ⟨3, _⟩ => ⟨S65536x1, .i32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S2048x1000, .f32⟩
  | .local _ .vmem, ⟨1, _⟩ => ⟨S2048x1000, .f32⟩
  | .local _ .vmem, ⟨2, _⟩ => ⟨S2048x1, .i32⟩
  | .local _ .vmem, ⟨3, _⟩ => ⟨S2048x1, .i32⟩
  | .local _ .vmem, ⟨4, _⟩ => ⟨S8x128, .f32⟩
  | .local _ .vmem, ⟨5, _⟩ => ⟨S8x128, .f32⟩
  | .local _ .vmem, ⟨6, _⟩ => ⟨S4096x256, .f32⟩
  | .local _ .vmem, ⟨7, _⟩ => ⟨S4096x256, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S65536_S65536x1 : S65536.ShapeCasts S65536x1
  inb_S8x128_S8x128_0_0 : ∀ a, (![0, 0] : Fin 2 → Nat) a + S8x128.size a ≤ S8x128.size a
  h_S8x128 : 0 < S8x128.numel
  iota_S2048x1000_d1_w32 : S2048x1000.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1000 : S2048x1.Broadcasts S2048x1000
  inb_S2048x1000_S2048x1000_0_0 : ∀ a, (![0, 0] : Fin 2 → Nat) a + S2048x1000.size a ≤ S2048x1000.size a
  h_S2048x1000 : 0 < S2048x1000.numel
  reduces_S2048x1000_S2048 : S2048x1000.Reduces [1] S2048
  shapeCasts_S2048_S2048x1 : S2048.ShapeCasts S2048x1
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  reduces_S4096x1_S1 : S4096x1.Reduces [0] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S65536x1000.size a
  hwx0_0 : ∀ i : grid0.Coords, EltTy.bits .f32 = 32 ∨ (Rect.block (s := S65536x1000) S2048x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S65536x256.size a
  hwx1_0 : ∀ i : grid1.Coords, EltTy.bits .f32 = 32 ∨ (Rect.block (s := S65536x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S16x128.size a
  hwx1_1 : ∀ i : grid1.Coords, EltTy.bits .f32 = 32 ∨ (Rect.block (s := S16x128) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S16x128.size a
  hwx1_2 : ∀ i : grid1.Coords, EltTy.bits .f32 = 32 ∨ (Rect.block (s := S16x128) S8x128.size (cc1_transform_2 i) (hinb1_2 i)).WholeWords (EltTy.packing .f32)

variable [Facts₀]

abbrev win0_0 : Pipeline.Window sig grid0 :=
  Pipeline.Window.ofSpec (Memref.whole main_arg0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S8x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x1000 : Shape := ⟨2, ![65536, 1000]⟩
abbrev S65536 : Shape := ⟨1, ![65536]⟩
abbrev S65536x256 : Shape := ⟨2, ![65536, 256]⟩
abbrev S65536x1 : Shape := ⟨2, ![65536, 1]⟩
abbrev S_ : Shape := ⟨0, ![]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x256, .f32⟩
  | .hbm, ⟨3, _⟩ => ⟨S65536x1, .i32⟩
  | .hbm, ⟨4, _⟩ => ⟨S_, .i32⟩
  | .hbm, ⟨5, _⟩ => ⟨S65536x1, .i32⟩
  | .hbm, ⟨6, _⟩ => ⟨S65536x1, .i1⟩
  | .hbm, ⟨7, _⟩ => ⟨S_, .i32⟩
  | .hbm, ⟨8, _⟩ => ⟨S65536x1, .i32⟩
  | .hbm, ⟨9, _⟩ => ⟨S65536x1, .i32⟩
  | .hbm, ⟨10, _⟩ => ⟨S65536x1, .i32⟩
  | .hbm, ⟨11, _⟩ => ⟨S65536x1x1, .i32⟩
  | .hbm, ⟨12, _⟩ => ⟨S1, .i32⟩
  | .hbm, ⟨13, _⟩ => ⟨S_, .i32⟩
  | .hbm, ⟨14, _⟩ => ⟨S65536x1x1, .i32⟩
  | .hbm, ⟨15, _⟩ => ⟨S65536x1x1, .i1⟩
  | .hbm, ⟨16, _⟩ => ⟨S1x1x1, .i32⟩
  | .hbm, ⟨17, _⟩ => ⟨S65536x1x1, .i32⟩
  | .hbm, ⟨18, _⟩ => ⟨S65536x1x1, .i1⟩
  | .hbm, ⟨19, _⟩ => ⟨S65536x1x1, .i1⟩
  | .hbm, ⟨20, _⟩ => ⟨S_, .i1⟩
  | .hbm, ⟨21, _⟩ => ⟨S65536x1, .i1⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S65536, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S65536, .f32⟩
  | .hbm, ⟨34, _⟩ => ⟨S_, .f32⟩
  | .hbm, ⟨35, _⟩ => ⟨S65536, .f32⟩
  | .hbm, ⟨36, _⟩ => ⟨S65536, .f32⟩
  | .hbm, ⟨37, _⟩ => ⟨S65536x1, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536, .f32⟩
  | .hbm, ⟨43, _⟩ => ⟨S65536x1, .f32⟩
  | .hbm, ⟨44, _⟩ => ⟨S65536x1, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S65536, .f32⟩
  | .hbm, ⟨55, _⟩ => ⟨S_, .f32⟩
  | .hbm, ⟨56, _⟩ => ⟨S65536, .f32⟩
  | .hbm, ⟨57, _⟩ => ⟨S65536, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_v5 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_cst_1 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_cst_2 : Ref sig .tc := ⟨.hbm, 51, rfl⟩
abbrev main_v10 : Ref sig .tc := ⟨.hbm, 52, rfl⟩
abbrev main_cst_3 : Ref sig .tc := ⟨.hbm, 53, rfl⟩
abbrev main_v11 : Ref sig .tc := ⟨.hbm, 54, rfl⟩
abbrev main_cst_4 : Ref sig .tc := ⟨.hbm, 55, rfl⟩
abbrev main_v12 : Ref sig .tc := ⟨.hbm, 56, rfl⟩
abbrev main_v13 : Ref sig .tc := ⟨.hbm, 57, rfl⟩
abbrev main_cst_5 : Ref sig .tc := ⟨.hbm, 58, rfl⟩
abbrev main_v14 : Ref sig .tc := ⟨.hbm, 59, rfl⟩
abbrev main_v15 : Ref sig .tc := ⟨.hbm, 60, rfl⟩
abbrev main_cst_6 : Ref sig .tc := ⟨.hbm, 61, rfl⟩
abbrev main_v16 : Ref sig .tc := ⟨.hbm, 62, rfl⟩
abbrev main_cst_7 : Ref sig .tc := ⟨.hbm, 63, rfl⟩
abbrev main_v17 : Ref sig .tc := ⟨.hbm, 64, rfl⟩
abbrev main_cst_8 : Ref sig .tc := ⟨.hbm, 65, rfl⟩
abbrev main_v18 : Ref sig .tc := ⟨.hbm, 66, rfl⟩
abbrev main_v19 : Ref sig .tc := ⟨.hbm, 67, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  h_S_ : 0 < S_.numel
  shapeCasts_S65536x1_S65536 : S65536x1.ShapeCasts S65536
  reducesTo_S65536_S_d0 : S65536.ReducesTo [0] S_
  reducesTo_S65536x256_S65536_d1 : S65536x256.ReducesTo [1] S65536
  bcast_S_S65536 : S_.BroadcastsInDim S65536 (![] : Fin 0 → Fin S65536.rank)
  bcast_S65536x1_S65536x256_0_1 : S65536x1.BroadcastsInDim S65536x256 (![0, 1] : Fin 2 → Fin S65536x256.rank)
  reducesTo_S65536x256_S_d0_1 : S65536x256.ReducesTo [0, 1] S_
  gather_S65536x1000_S65536x1x1_S65536x1_n_1_0_0_1_2_11_wf : GatherDims.WF S65536x1000 S65536x1x1 S65536x1 [] [1] [0] [1] [0] 2 ![1, 1]

variable [Facts₀]

def gather_S65536x1000_S65536x1x1_S65536x1_n_1_0_0_1_2_11 : GatherDims S65536x1000 S65536x1x1 S65536x1 where
  offsetDims := []
  collapsedSliceDims := [1]
  operandBatchingDims := [0]
  startIndicesBatchingDims := [0]
  startIndexMap := [1]
  indexVectorDim := 2
  sliceSizes := ![1, 1]
  wf := gather_S65536x1000_S65536x1x1_S65536x1_n_1_0_0_1_2_11_wf

class Facts : Prop extends Facts₀ where

variable [Facts]
-- ==== Proof.Spec.lean ====
/-
  What the two programs compute, as functions of the argument arrays read at the ideal values, row by row. The row
  count N is a parameter: the same definitions describe one block of rows and the whole array.
  X n k : the score of row n for class k (1000 classes); T n : row n's label, a 32-bit word; Z n c : feature c of
  row n (256 features).

  * The picked score of row n, written the way a one-hot mask computes it: the sum over the 1000 columns k of X n k
    where the word of k equals T n, and 0 elsewhere. `nllTotal` adds the rows.
  * Row-wise log-softmax of Z: the row maximum M n (the fold of max from -inf), the shifted entries
    s n c = Z n c - M n, the log of the row's sum of exponentials L n, lf n c = s n c - L n and the probabilities
    p n c = exp (lf n c).
  * term1 = sum over n, c of p * lf. The pairwise term comes in two arrangements of one number: `term2K` uses the
    row sum of lf in the form (sum_c s n c) - 256 * L n, `term2R` the plain sum_c lf n c; they agree when every
    entry is a real number (256 copies of the real L n taken out of the sum).
  * The three results, over all 65536 rows: lossNll = (-(nllTotal)) / 65536, lossKl = (256 * term1 - term2) / 65536
    and loss = 1 * lossNll + 0.2 * lossKl, the four float literals kept as the words the programs carry.
-/
import Idealize.ShloMosaic.PureOps.Ideal
import Idealize.ShloMosaic.Lib.ValueIdx

noncomputable section

namespace Cert.Xmi

open Idealize.ShloMosaic Idealize.ShloMosaic.ValueIdx

abbrev SX : Shape := ⟨2, ![65536, 1000]⟩
abbrev ST : Shape := ⟨1, ![65536]⟩
abbrev SZ : Shape := ⟨2, ![65536, 256]⟩

variable {N : ℕ}

/-- Row r of block b when N = B * R rows are cut into B blocks of R consecutive rows. -/
def blk (B R N : ℕ) (hN : N = B * R) (b : Fin B) (r : Fin R) : Fin N :=
  ⟨b.val * R + r.val, by
    have hb := b.isLt; have hr := r.isLt
    calc b.val * R + r.val < b.val * R + R := by omega
      _ = (b.val + 1) * R := by ring
      _ ≤ B * R := Nat.mul_le_mul_right R hb
      _ = N := hN.symm⟩

theorem blk_val (B R N : ℕ) (hN : N = B * R) (b : Fin B) (r : Fin R) : (blk B R N hN b r).val = b.val * R + r.val := rfl

/-- Entry (n, k) of the masked scores: X n k where column k is row n's label, else 0. -/
def hot (X : Fin N → Fin 1000 → EReal) (T : Fin N → BitVec 32) (n : Fin N) (k : Fin 1000) : EReal :=
  if BitVec.ofNat 32 k.val = T n then X n k else 0

/-- The sum of the picked scores over the rows. -/
def nllTotal (X : Fin N → Fin 1000 → EReal) (T : Fin N → BitVec 32) : EReal :=
  ∑ n : Fin N, ∑ k : Fin 1000, hot X T n k

/-- Row n's maximum: the fold of max over its 256 entries from -inf. -/
def rowMax (Z : Fin N → Fin 256 → EReal) (n : Fin N) : EReal :=
  (Finset.univ : Finset (Fin 256)).fold max (⊥ : EReal) (Z n)

/-- The shifted entry Z n c - M n. -/
def sh (Z : Fin N → Fin 256 → EReal) (n : Fin N) (c : Fin 256) : EReal := Z n c - rowMax Z n

/-- L n: the log of the row's sum of exponentials of the shifted entries. -/
def lse (Z : Fin N → Fin 256 → EReal) (n : Fin N) : EReal := Ideal.log (∑ c : Fin 256, Ideal.exp (sh Z n c))

/-- The log-softmax entry. -/
def lf (Z : Fin N → Fin 256 → EReal) (n : Fin N) (c : Fin 256) : EReal := sh Z n c - lse Z n

/-- The softmax probability. -/
def pr (Z : Fin N → Fin 256 → EReal) (n : Fin N) (c : Fin 256) : EReal := Ideal.exp (lf Z n c)

/-- The word of 256.0. -/
abbrev c256 : EReal := Ideal.ofBits .f32 0x43800000#32
/-- The word of 65536.0. -/
abbrev c65536 : EReal := Ideal.ofBits .f32 0x47800000#32
/-- The word of 1.0. -/
abbrev c1 : EReal := Ideal.ofBits .f32 0x3F800000#32
/-- The word of the float nearest 0.2. -/
abbrev c02 : EReal := Ideal.ofBits .f32 0x3E4CCCCD#32

def term1 (Z : Fin N → Fin 256 → EReal) : EReal := ∑ n : Fin N, ∑ c : Fin 256, pr Z n c * lf Z n c

/-- The pairwise term with each row's sum of lf written (sum of shifted) - 256 * L. -/
def term2K (Z : Fin N → Fin 256 → EReal) : EReal :=
  ∑ n : Fin N, (∑ c : Fin 256, pr Z n c) * ((∑ c : Fin 256, sh Z n c) - c256 * lse Z n)

/-- The pairwise term with each row's sum of lf taken directly. -/
def term2R (Z : Fin N → Fin 256 → EReal) : EReal :=
  ∑ n : Fin N, (∑ c : Fin 256, pr Z n c) * (∑ c : Fin 256, lf Z n c)

def lossNll (X : Fin 65536 → Fin 1000 → EReal) (T : Fin 65536 → BitVec 32) : EReal :=
  Ideal.div (-(nllTotal X T)) c65536

def lossKl (Z : Fin 65536 → Fin 256 → EReal) : EReal := Ideal.div (c256 * term1 Z - term2K Z) c65536

def loss (X : Fin 65536 → Fin 1000 → EReal) (T : Fin 65536 → BitVec 32) (Z : Fin 65536 → Fin 256 → EReal) : EReal :=
  c1 * lossNll X T + c02 * lossKl Z

end Cert.Xmi

end
-- ==== Proof.PreDecode.lean ====
/-
  The precondition read: every score and every feature is a real number, and every label is the word of a column
  index below 1000.
-/
import proofs.«401249_j45887430590815_3_alg».proof.Proof.Spec
import proofs.«401249_j45887430590815_3_alg».proof.Pre_finite_inputs
import proofs.«401249_j45887430590815_3_alg».proof.Proof.Gen.Pre_finite_inputs
import Idealize.ShloMosaic.Lib.ReduceAll

noncomputable section

namespace Cert.Xmi

open Idealize.ShloMosaic Idealize.ShloMosaic.ValueIdx

/-- The scalar shape has one index. -/
instance PreDecode.scalarIdxSubsingleton : Subsingleton Cert.Pre_finite_inputs.S_.Idx :=
  ⟨fun a b => funext fun d => d.elim0⟩

/-- The word 0x7F800000 is +inf. -/
theorem PreDecode.inf_word : Ideal.ofBits .f32 0x7F800000#32 = (⊤ : EReal) := by
  simp [Ideal.ofBits, Ideal.ieee]

/-- An extended real whose absolute value max x (-x) is strictly below +inf is a real number:
    x = +inf gives max = +inf, x = -inf gives -x = +inf. -/
theorem PreDecode.real_of_abs_lt_inf (x : EReal)
    (hx : Ideal.cmp .olt (max x (-x)) (Ideal.ofBits .f32 0x7F800000#32) = 1#1) : ∃ r : ℝ, x = (r : EReal) := by
  rw [PreDecode.inf_word] at hx
  induction x using EReal.rec with
  | bot => exact absurd hx (by simp [Ideal.cmp])
  | coe r => exact ⟨r, rfl⟩
  | top => exact absurd hx (by simp [Ideal.cmp])

/-- A 32-bit word that is at least 0 and below 1000 in the signed order has a value below 1000:
    the first comparison clears the sign bit, so the signed and unsigned values agree. -/
theorem PreDecode.toNat_lt_1000 (w : BitVec 32) (h0 : IntOp.cmpi .sge w 0#32 = 1#1) (h1 : IntOp.cmpi .slt w 1000#32 = 1#1) :
    w.toNat < 1000 := by
  have b0 : (0#32 : BitVec 32).sle w = true := by
    unfold IntOp.cmpi at h0; revert h0; cases (0#32 : BitVec 32).sle w <;> simp
  have b1 : w.slt 1000#32 = true := by
    unfold IntOp.cmpi at h1; revert h1; cases w.slt 1000#32 <;> simp
  simp only [BitVec.sle, BitVec.slt, decide_eq_true_eq] at b0 b1
  have z0 : (0#32 : BitVec 32).toInt = 0 := by decide
  have z1 : (1000#32 : BitVec 32).toInt = 1000 := by decide
  rw [z0] at b0; rw [z1] at b1
  rw [BitVec.toInt_eq_toNat_cond] at b0 b1
  have := w.isLt
  split at b0 <;> omega

theorem pre_decode (X : SX.Idx → EReal) (T : ST.Idx → BitVec 32) (Z : SZ.Idx → EReal)
    (h : Cert.Pre_finite_inputs.fn (F := Ideal) X T Z = fun _ => 1#1) :
    (∀ i, ∃ r : ℝ, X i = (r : EReal)) ∧ (∀ i, ∃ r : ℝ, Z i = (r : EReal))
      ∧ (∀ n : Fin 65536, ∃ t : Fin 1000, T (ix1 n) = BitVec.ofNat 32 t.val) := by
  have e := congrFun h ix0
  dsimp only [Cert.Pre_finite_inputs.fn, Cert.Pre_finite_inputs.fn_part1, andi] at e
  obtain ⟨e123, e4⟩ := IntOp.andi_eq_one.1 e
  obtain ⟨e12, e3⟩ := IntOp.andi_eq_one.1 e123
  obtain ⟨e1, e2⟩ := IntOp.andi_eq_one.1 e12
  refine ⟨fun i => ?_, fun i => ?_, fun n => ?_⟩
  · -- entry i of the first mask is |X i| < +inf
    exact PreDecode.real_of_abs_lt_inf (X i) (Host.reduce_andi_all _ _ _ _ ix0 e1 i)
  · -- entry i of the second mask is |Z i| < +inf
    exact PreDecode.real_of_abs_lt_inf (Z i) (Host.reduce_andi_all _ _ _ _ ix0 e2 i)
  · -- entry n of the third and fourth masks: 0 ≤ T n and T n < 1000, signed
    have p0 : IntOp.cmpi .sge (T (ix1 n)) 0#32 = 1#1 := Host.reduce_andi_all _ _ _ _ ix0 e3 (ix1 n)
    have p1 : IntOp.cmpi .slt (T (ix1 n)) 1000#32 = 1#1 := Host.reduce_andi_all _ _ _ _ ix0 e4 (ix1 n)
    refine ⟨⟨(T (ix1 n)).toNat, PreDecode.toNat_lt_1000 _ p0 p1⟩, ?_⟩
    show T (ix1 n) = BitVec.ofNat 32 (T (ix1 n)).toNat
    rw [BitVec.ofNat_toNat, BitVec.setWidth_eq]

end Cert.Xmi

end
-- ==== Proof.KDefs.lean ====
/-
  The host lines after each pallas_call read two cells of a [16, 128] accumulator array, (0, 0) and (8, 0) — one per
  TensorCore half — as scalars and add them. `pick2` is that host term.
-/
import proofs.«401249_j45887430590815_3_alg».proof.Proof.Gen.KernelIdeal

noncomputable section

namespace Cert.KernelIdeal.HostK

open Cert.KernelIdeal Cert.KernelIdeal.Gen Idealize.ShloMosaic

variable {F : FTy → Type} [FloatOps F]

/-- Cell (0, 0) plus cell (8, 0) of a [16, 128] array, as a scalar. -/
def pick2 (A : FVec F S16x128 .f32) : FVec F S_ .f32 :=
  addf (shapeCast S_ (extractStridedSlice S1x1 ![0, 0] A slices_S16x128_S1x1_0_0) shapeCasts_S1x1_S_)
    (shapeCast S_ (extractStridedSlice S1x1 ![8, 0] A slices_S16x128_S1x1_8_0) shapeCasts_S1x1_S_)

end Cert.KernelIdeal.HostK

end
-- ==== Proof.KHost.lean ====
/-
  The host lines of the kernel's program, read as values. Before the first pallas_call the labels are reshaped to a
  [65536, 1] column; the scores and the features reach their calls as launched. After each call the host adds cells
  (0, 0) and (8, 0) of that call's [16, 128] result array (`pick2`): the first call's sum is negated and divided by
  65536; the second call's two sums enter (256 * first - second) / 65536; the last lines form 1 * a + 0.2 * b.
-/
import proofs.«401249_j45887430590815_3_alg».proof.Proof.Gen.KernelIdeal.Frame
import proofs.«401249_j45887430590815_3_alg».proof.Proof.KDefs
import Idealize.ShloMosaic.Lib.StableHlo.Run
import Idealize.ShloMosaic.Lib.Pipeline.Value
import Idealize.ShloMosaic.Lib.Tactic

set_option maxRecDepth 16384

noncomputable section

namespace Cert.KernelIdeal.HostK

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The first call's result array when the call is over. -/
abbrev accN (c : Dev nD) : FVec F S16x128 .f32 := (dat0 (V1 m ρ) c).arrAt 2 cfg0.N
/-- The second call's two result arrays when the call is over. -/
abbrev acc1 (c : Dev nD) : FVec F S16x128 .f32 := (dat1 (V3 m ρ) c).arrAt 1 cfg1.N
abbrev acc2 (c : Dev nD) : FVec F S16x128 .f32 := (dat1 (V3 m ρ) c).arrAt 2 cfg1.N

/-- The first call finds the scores as launched. -/
theorem V1_arg0 (c : Dev nD) : V1 m ρ c main_arg0 = m ((c : Thread nD τ).loc main_arg0) := by
  show StableHlo.after hostOps0 (W0 m ρ c) (Proc.devRef .tc main_arg0) = _
  after_results

/-- It finds the labels as a [65536, 1] column. -/
theorem V1_v0 (c : Dev nD) :
    V1 m ρ c main_v0 = shapeCast S65536x1 (m ((c : Thread nD τ).loc main_arg1)) shapeCasts_S65536_S65536x1 := by
  show StableHlo.after hostOps0 (W0 m ρ c) (Proc.devRef .tc main_v0) = _
  after_results
  rfl

/-- The second call finds the features as launched. -/
theorem V3_arg2 (c : Dev nD) : V3 m ρ c main_arg2 = m ((c : Thread nD τ).loc main_arg2) := by
  show StableHlo.after hostOps1 (W2 m ρ c) (Proc.devRef .tc main_arg2) = _
  after_results
  refine (W2_of_ne m ρ c main_arg2 (by decide)).trans ?_
  show StableHlo.after hostOps0 (W0 m ρ c) (Proc.devRef .tc main_arg2) = _
  after_results

/-- Between the calls the host adds the two cells of the first call's result. -/
theorem W3_v6 (c : Dev nD) : W3 m ρ c (Proc.devRef .tc main_v6) = pick2 (accN m ρ c) := by
  have e : W2 m ρ c (Proc.devRef .tc main_v1) = accN m ρ c := W2_arr m ρ c 2
  show StableHlo.after hostOps1 (W2 m ρ c) (Proc.devRef .tc main_v6) = _
  after_results
  rw [e]
  rfl

/-- The second result: minus that sum, over 65536. -/
theorem W5_v19 (c : Dev nD) :
    W5 m ρ c (Proc.devRef .tc main_v19)
      = Host.divf (Host.negf (pick2 (accN m ρ c))) (constant S_ .f32 0x47800000#32) := by
  have e6 : W4 m ρ c (Proc.devRef .tc main_v6) = pick2 (accN m ρ c) :=
    (W4_of_ne m ρ c main_v6 (by decide)).trans (W3_v6 m ρ c)
  show StableHlo.after hostOps2 (W4 m ρ c) (Proc.devRef .tc main_v19) = _
  after_results
  rw [e6]

/-- The third result: 256 times the first sum of the second call minus its second sum, over 65536. -/
theorem W5_v22 (c : Dev nD) :
    W5 m ρ c (Proc.devRef .tc main_v22)
      = Host.divf (subf (mulf (constant S_ .f32 0x43800000#32) (pick2 (acc1 m ρ c))) (pick2 (acc2 m ρ c)))
          (constant S_ .f32 0x47800000#32) := by
  have e1 : W4 m ρ c (Proc.devRef .tc main_v7_0) = acc1 m ρ c := W4_arr m ρ c 1
  have e2 : W4 m ρ c (Proc.devRef .tc main_v7_1) = acc2 m ρ c := W4_arr m ρ c 2
  show StableHlo.after hostOps2 (W4 m ρ c) (Proc.devRef .tc main_v22) = _
  after_results
  rw [e1, e2]
  rfl

/-- The first result: 1 * (second result) + 0.2 * (third result). -/
theorem W5_v25 (c : Dev nD) :
    W5 m ρ c (Proc.devRef .tc main_v25)
      = addf (mulf (constant S_ .f32 0x3F800000#32)
            (Host.divf (Host.negf (pick2 (accN m ρ c))) (constant S_ .f32 0x47800000#32)))
          (mulf (constant S_ .f32 0x3E4CCCCD#32)
            (Host.divf (subf (mulf (constant S_ .f32 0x43800000#32) (pick2 (acc1 m ρ c))) (pick2 (acc2 m ρ c)))
              (constant S_ .f32 0x47800000#32))) := by
  have e6 : W4 m ρ c (Proc.devRef .tc main_v6) = pick2 (accN m ρ c) :=
    (W4_of_ne m ρ c main_v6 (by decide)).trans (W3_v6 m ρ c)
  have e1 : W4 m ρ c (Proc.devRef .tc main_v7_0) = acc1 m ρ c := W4_arr m ρ c 1
  have e2 : W4 m ρ c (Proc.devRef .tc main_v7_1) = acc2 m ρ c := W4_arr m ρ c 2
  show StableHlo.after hostOps2 (W4 m ρ c) (Proc.devRef .tc main_v25) = _
  after_results
  rw [e6, e1, e2]
  rfl

end Cert.KernelIdeal.HostK

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KPay0.lean ====
/-
  The first kernel body's arithmetic, read at an index, at the ideal values. One grid point holds a block x0 of 2048
  rows of scores and the column x1 of their 2048 labels. The body forms the one-hot mask (column index = label),
  keeps the masked scores, sums each row over its 1000 columns and then the 2048 row sums: the block's masked-score
  total. That number is placed in cell (0, 0) of an [8, 128] tile of zeros and the tile is added to the accumulator.
-/
import proofs.«401249_j45887430590815_3_alg».proof.Proof.Gen.KernelIdeal.Skeleton
import proofs.«401249_j45887430590815_3_alg».proof.Proof.Spec
import proofs.«401249_j45887430590815_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay0

open Cert.KernelIdeal Cert.KernelIdeal.Gen
open Idealize.ShloMosaic Idealize.ShloMosaic.ValueIdx

/-- The tile the reset stores is zero everywhere. -/
theorem pay1_apply (a : Fin 8) (b : Fin 128) : k0_pay1 (F := Ideal) (ix2 a b) = (0 : EReal) := by
  unfold k0_pay1
  exact Ideal.ofBits_zero_f32

/-- The equality test of two words gives the bit 1 exactly when they are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := by simpa using h
    rw [hb]
    exact ⟨fun hc => absurd hc (by decide), fun hc => absurd hc h⟩

/-- The conjunction of two bits is 1 exactly when both are. -/
theorem andi_one_iff (u v : BitVec 1) : IntOp.andi u v = 1#1 ↔ u = 1#1 ∧ v = 1#1 := by
  show u &&& v = 1#1 ↔ u = 1#1 ∧ v = 1#1
  revert u v; decide

/-- A select on an equality test of two words is the if-then-else on their equality. -/
theorem select_cmpi_eq {α : Type} (x y : BitVec 32) (p q : α) :
    Scalar.select (IntOp.cmpi .eq x y) p q = if x = y then p else q :=
  if_congr (cmpi_eq_one_iff x y) rfl rfl

/-- A select on the conjunction of two equality tests. -/
theorem select_andi_cmpi_eq {α : Type} (x y x' y' : BitVec 32) (p q : α) :
    Scalar.select (IntOp.andi (IntOp.cmpi .eq x y) (IntOp.cmpi .eq x' y')) p q = if x = y ∧ x' = y' then p else q :=
  if_congr ((andi_one_iff _ _).trans (and_congr (cmpi_eq_one_iff x y) (cmpi_eq_one_iff x' y'))) rfl rfl

/-- The word of a natural below 2^32 is the zero word only for 0. -/
theorem ofNat_eq_zero_iff (n : ℕ) (hn : n < 4294967296) : BitVec.ofNat 32 n = 0#32 ↔ n = 0 := by
  constructor
  · intro h
    have := congrArg BitVec.toNat h
    simp at this
    omega
  · intro h; subst h; rfl

/-- The one-hot mask at (r, k): the word of column k tested against row r's label. -/
theorem mask_apply (x1 : Vec Ideal S2048x1 .i32) (r : Fin 2048) (k : Fin 1000) :
    cmpi .eq (iota .tc S2048x1000 32 [1] iota_S2048x1000_d1_w32)
        (broadcastTo S2048x1000 (shapeCast S2048x1 x1 shapeCasts_S2048x1_S2048x1) broadcasts_S2048x1_S2048x1000) (ix2 r k)
      = IntOp.cmpi .eq (BitVec.ofNat 32 k.val) (x1 (ix2 r (0 : Fin 1))) := by
  show IntOp.cmpi .eq (iota .tc S2048x1000 32 [1] iota_S2048x1000_d1_w32 (ix2 r k))
        (broadcastTo S2048x1000 (shapeCast S2048x1 x1 shapeCasts_S2048x1_S2048x1) broadcasts_S2048x1_S2048x1000 (ix2 r k)) = _
  rw [iota_single_apply, Cert.LibColumn.broadcastTo_a1_ab_apply, shapeCast_self]

/-- The sum over the 1000 lanes of row r. -/
theorem laneSum_apply (v : FVec Ideal S2048x1000 .f32) (r : Fin 2048) :
    multiReduction (F := Ideal) .add [1] S2048 v 0x00000000#32 reduces_S2048x1000_S2048 (.inl rfl) rfl (ix1 r)
      = ∑ k : Fin 1000, (v (ix2 r k) : EReal) := by
  refine (Ideal.multiReduction_add_single v _ reduces_S2048x1000_S2048 (.inl rfl) rfl (ix1 r)).trans ?_
  refine Finset.sum_congr rfl fun k _ => congrArg v ?_
  exact Shape.idx_ext₂ rfl rfl

/-- The sum over the 2048 rows of a column. -/
theorem rowSum_apply (v : FVec Ideal S2048x1 .f32) :
    multiReduction (F := Ideal) .add [0] S1 v 0x00000000#32 reduces_S2048x1_S1 (.inl rfl) rfl (ix1 (0 : Fin 1))
      = ∑ r : Fin 2048, (v (ix2 r (0 : Fin 1)) : EReal) := by
  refine (Ideal.multiReduction_add_single v _ reduces_S2048x1_S1 (.inl rfl) rfl (ix1 (0 : Fin 1))).trans ?_
  refine Finset.sum_congr rfl fun r _ => congrArg v ?_
  exact Shape.idx_ext₂ rfl rfl

/-- A [1, 1] value broadcast to the [8, 128] tile reads its one entry everywhere. -/
theorem bcast11_apply (v : FVec Ideal S1x1 .f32) (a : Fin 8) (b : Fin 128) :
    broadcastTo S8x128 v broadcasts_S1x1_S8x128 (ix2 a b) = v (ix2 (0 : Fin 1) (0 : Fin 1)) := by
  refine broadcastTo_apply v broadcasts_S1x1_S8x128 (ix2 a b) (ix2 (0 : Fin 1) (0 : Fin 1)) fun ax => ?_
  match ax with
  | ⟨0, _⟩ => rfl
  | ⟨1, _⟩ => rfl

/-- The tile mask "row 0 and lane 0" at (a, b). -/
theorem cell00_apply (a : Fin 8) (b : Fin 128) :
    andi (cmpi .eq (iota .tc S8x128 32 [0] iota_S8x128_d0_w32) (broadcast S8x128 0#32))
         (cmpi .eq (iota .tc S8x128 32 [1] iota_S8x128_d1_w32) (broadcast S8x128 0#32)) (ix2 a b)
      = IntOp.andi (IntOp.cmpi .eq (BitVec.ofNat 32 a.val) 0#32) (IntOp.cmpi .eq (BitVec.ofNat 32 b.val) 0#32) := by
  show IntOp.andi (IntOp.cmpi .eq (iota .tc S8x128 32 [0] iota_S8x128_d0_w32 (ix2 a b)) 0#32)
        (IntOp.cmpi .eq (iota .tc S8x128 32 [1] iota_S8x128_d1_w32 (ix2 a b)) 0#32) = _
  rw [iota_single_apply, iota_single_apply]

/-- The masked scores at (r, k): the score where the column's word is the row's label, else the zero word's value 0. -/
theorem masked_apply (x1 : Vec Ideal S2048x1 .i32) (x0 : Vec Ideal S2048x1000 .f32) (r : Fin 2048) (k : Fin 1000) :
    select (cmpi .eq (iota .tc S2048x1000 32 [1] iota_S2048x1000_d1_w32)
        (broadcastTo S2048x1000 (shapeCast S2048x1 x1 shapeCasts_S2048x1_S2048x1) broadcasts_S2048x1_S2048x1000))
      x0 (broadcast S2048x1000 (Scalar.ofBits (F := Ideal) .f32 0x00000000#32)) (ix2 r k)
      = Cert.Xmi.hot (fun (r : Fin 2048) (k : Fin 1000) => (x0 (ix2 r k) : EReal)) (fun r => x1 (ix2 r (0 : Fin 1))) r k := by
  refine (select_apply _ _ _ _).trans ?_
  rw [mask_apply, select_cmpi_eq]
  unfold Cert.Xmi.hot
  exact if_congr Iff.rfl rfl Ideal.ofBits_zero_f32

/-- The block's masked-score total: the lane sums added over the rows, viewed as a [1, 1] value. -/
theorem total_apply (x1 : Vec Ideal S2048x1 .i32) (x0 : Vec Ideal S2048x1000 .f32) :
    shapeCast S1x1 (multiReduction (F := Ideal) .add [0] S1
        (shapeCast S2048x1 (multiReduction (F := Ideal) .add [1] S2048
            (select (cmpi .eq (iota .tc S2048x1000 32 [1] iota_S2048x1000_d1_w32)
                (broadcastTo S2048x1000 (shapeCast S2048x1 x1 shapeCasts_S2048x1_S2048x1) broadcasts_S2048x1_S2048x1000))
              x0 (broadcast S2048x1000 (Scalar.ofBits (F := Ideal) .f32 0x00000000#32)))
            0x00000000#32 reduces_S2048x1000_S2048 (.inl rfl) rfl) shapeCasts_S2048_S2048x1)
        0x00000000#32 reduces_S2048x1_S1 (.inl rfl) rfl) shapeCasts_S1_S1x1 (ix2 (0 : Fin 1) (0 : Fin 1))
      = Cert.Xmi.nllTotal (fun (r : Fin 2048) (k : Fin 1000) => (x0 (ix2 r k) : EReal)) (fun r => x1 (ix2 r (0 : Fin 1))) := by
  refine (Cert.LibColumn.shapeCast_a_a1_apply _ _ (0 : Fin 1) (0 : Fin 1)).trans ?_
  refine (rowSum_apply _).trans ?_
  unfold Cert.Xmi.nllTotal
  refine Finset.sum_congr rfl fun r _ => ?_
  refine (Cert.LibColumn.shapeCast_a_a1_apply _ _ r (0 : Fin 1)).trans ?_
  refine (laneSum_apply _ r).trans ?_
  exact Finset.sum_congr rfl fun k _ => masked_apply x1 x0 r k

/-- The tile update at (a, b): the old entry plus the [1, 1] value in cell (0, 0) only. -/
theorem tile_apply (acc : Vec Ideal S8x128 .f32) (s : FVec Ideal S1x1 .f32) (a : Fin 8) (b : Fin 128) :
    addf (shapeCast S8x128 acc shapeCasts_S8x128_S8x128)
        (select (andi (cmpi .eq (iota .tc S8x128 32 [0] iota_S8x128_d0_w32) (broadcast S8x128 0#32))
                      (cmpi .eq (iota .tc S8x128 32 [1] iota_S8x128_d1_w32) (broadcast S8x128 0#32)))
          (broadcastTo S8x128 (shapeCast S1x1 s shapeCasts_S1x1_S1x1) broadcasts_S1x1_S8x128)
          (broadcast S8x128 (Scalar.ofBits (F := Ideal) .f32 0x00000000#32))) (ix2 a b)
      = (acc (ix2 a b) : EReal) + (if a.val = 0 ∧ b.val = 0 then (s (ix2 (0 : Fin 1) (0 : Fin 1)) : EReal) else 0) := by
  refine (addf_apply _ _ _).trans ?_
  rw [shapeCast_self]
  refine congrArg (fun t : EReal => (acc (ix2 a b) : EReal) + t) ?_
  refine (select_apply _ _ _ _).trans ?_
  rw [cell00_apply, select_andi_cmpi_eq, bcast11_apply, shapeCast_self]
  refine if_congr (and_congr (ofNat_eq_zero_iff a.val (by omega)) (ofNat_eq_zero_iff b.val (by omega))) rfl ?_
  exact Ideal.ofBits_zero_f32

/-- The accumulator update, entry by entry: the old entry, plus the block's masked-score total in cell (0, 0) only. -/
theorem pay2_apply (x1 : Vec Ideal S2048x1 .i32) (x0 : Vec Ideal S2048x1000 .f32) (acc : Vec Ideal S8x128 .f32)
    (a : Fin 8) (b : Fin 128) :
    k0_pay2 x1 x0 acc (ix2 a b)
      = (acc (ix2 a b) : EReal) + (if a.val = 0 ∧ b.val = 0
          then Cert.Xmi.nllTotal (fun (r : Fin 2048) (k : Fin 1000) => (x0 (ix2 r k) : EReal)) (fun r => x1 (ix2 r (0 : Fin 1)))
          else 0) := by
  unfold k0_pay2
  refine (tile_apply acc _ a b).trans ?_
  exact congrArg (fun t : EReal => (acc (ix2 a b) : EReal) + (if a.val = 0 ∧ b.val = 0 then t else 0)) (total_apply x1 x0)

end Cert.KernelIdeal.Pay0

end
-- ==== Proof.Math.lean ====
/-
  The arithmetic between the two arrangements, over the extended reals.
-/
import proofs.«401249_j45887430590815_3_alg».proof.Proof.Spec
import Idealize.ShloMosaic.PureOps.Ideal.Laws
import Mathlib.Algebra.BigOperators.Fin
import Mathlib.Algebra.Order.BigOperators.Group.Finset
import Mathlib.Data.Finset.Fold
import Mathlib.Data.EReal.Basic
import Mathlib.Analysis.SpecialFunctions.Exp

noncomputable section

namespace Cert.Xmi

open Idealize.ShloMosaic Idealize.ShloMosaic.ValueIdx

/-- The word 0x43800000 (sign 0, exponent 135, fraction 0) is 2^23 * 2^(135 - 127 - 23) = 256. -/
theorem c256_eq : c256 = ((256 : ℝ) : EReal) := by
  simp [Ideal.ofBits, Ideal.ieee, -EReal.coe_mul]; norm_num

/-- The word 0x47800000 (sign 0, exponent 143, fraction 0) is 2^23 * 2^(143 - 127 - 23) = 65536. -/
theorem c65536_eq : c65536 = ((65536 : ℝ) : EReal) := by
  simp [Ideal.ofBits, Ideal.ieee, -EReal.coe_mul]; norm_num

/-- A sum over N = B * R consecutive positions is the sum over B blocks of the sums over each block's R positions. -/
theorem sum_fin_blocks {M : Type} [AddCommMonoid M] (B R N : ℕ) (hN : N = B * R) (f : Fin N → M) :
    ∑ n : Fin N, f n = ∑ b : Fin B, ∑ r : Fin R, f (blk B R N hN b r) := by
  subst hN
  -- the pair (b, r) sits at position r + R * b of Fin (B * R); every position is hit exactly once
  rw [← (finProdFinEquiv (m := B) (n := R)).sum_comp, Fintype.sum_prod_type]
  refine Finset.sum_congr rfl fun b _ => Finset.sum_congr rfl fun r _ => ?_
  congr 1
  ext
  simp only [finProdFinEquiv, Equiv.coe_fn_mk, blk_val]
  ring

/-- The masked-score total of N = B * R rows is the sum of the totals of the B blocks of R rows. -/
theorem nllTotal_blocks (B R N : ℕ) (hN : N = B * R) (X : Fin N → Fin 1000 → EReal) (T : Fin N → BitVec 32) :
    nllTotal X T = ∑ b : Fin B, nllTotal (fun r => X (blk B R N hN b r)) (fun r => T (blk B R N hN b r)) := by
  -- regroup the rows into blocks; the masked entry of row r of block b reads X and T at that row only
  unfold nllTotal
  rw [sum_fin_blocks B R N hN]
  rfl

/-- term1 of N = B * R rows is the sum of the blocks' term1 (every row function reads its own row only). -/
theorem term1_blocks (B R N : ℕ) (hN : N = B * R) (Z : Fin N → Fin 256 → EReal) :
    term1 Z = ∑ b : Fin B, term1 (fun r => Z (blk B R N hN b r)) := by
  -- regroup the rows into blocks; the row maximum, L, lf and p of a row depend on that row of Z only
  unfold term1
  rw [sum_fin_blocks B R N hN]
  rfl

/-- The same for the pairwise term in the kernel's arrangement. -/
theorem term2K_blocks (B R N : ℕ) (hN : N = B * R) (Z : Fin N → Fin 256 → EReal) :
    term2K Z = ∑ b : Fin B, term2K (fun r => Z (blk B R N hN b r)) := by
  unfold term2K
  rw [sum_fin_blocks B R N hN]
  rfl

/-- A row whose label is column t: the masked row sums to X n t. -/
theorem hot_sum_eq {N : ℕ} (X : Fin N → Fin 1000 → EReal) (T : Fin N → BitVec 32) (n : Fin N) (t : Fin 1000)
    (ht : T n = BitVec.ofNat 32 t.val) : ∑ k : Fin 1000, hot X T n k = X n t := by
  rw [Finset.sum_eq_single t]
  · -- column t itself passes the mask
    simp [hot, ht]
  · -- any other column k < 1000 has a different 32-bit word, so its entry is 0
    intro k _ hk
    unfold hot
    rw [if_neg]
    rw [ht]
    intro h
    apply hk
    have h2 := congrArg BitVec.toNat h
    simp only [BitVec.toNat_ofNat] at h2
    have hk' := k.isLt
    have ht' := t.isLt
    ext
    omega
  · intro h
    exact absurd (Finset.mem_univ t) h

/-- The inclusion of the reals carries a finite sum to the finite sum of the inclusions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row of 256 real entries, folded from -inf, is a real: it lies below +inf because every
    entry does, and above -inf because entry 0 does. -/
theorem rowMax_real {N : ℕ} (Z : Fin N → Fin 256 → EReal) (hZ : ∀ (n : Fin N) (c : Fin 256), ∃ r : ℝ, Z n c = (r : EReal))
    (n : Fin N) : ∃ m : ℝ, rowMax Z n = (m : EReal) := by
  have hlt : rowMax Z n < ⊤ := by
    unfold rowMax
    rw [Finset.fold_max_lt]
    refine ⟨bot_lt_top, fun c _ => ?_⟩
    obtain ⟨r, hr⟩ := hZ n c
    rw [hr]; exact EReal.coe_lt_top r
  have hgt : ⊥ < rowMax Z n := by
    unfold rowMax
    rw [Finset.lt_fold_max]
    right
    refine ⟨0, Finset.mem_univ _, ?_⟩
    obtain ⟨r, hr⟩ := hZ n 0
    rw [hr]; exact EReal.bot_lt_coe r
  exact ⟨(rowMax Z n).toReal, (EReal.coe_toReal hlt.ne hgt.ne').symm⟩

/-- The shifted entries of a row of reals are reals. -/
theorem sh_real {N : ℕ} (Z : Fin N → Fin 256 → EReal) (hZ : ∀ (n : Fin N) (c : Fin 256), ∃ r : ℝ, Z n c = (r : EReal))
    (n : Fin N) : ∃ s : Fin 256 → ℝ, ∀ c, sh Z n c = ((s c : ℝ) : EReal) := by
  obtain ⟨m, hm⟩ := rowMax_real Z hZ n
  choose z hz using hZ
  refine ⟨fun c => z n c - m, fun c => ?_⟩
  unfold sh
  rw [hz, hm, EReal.coe_sub]

/-- The log of the sum of exponentials of a row of reals is a real: the sum of 256 positive reals is positive. -/
theorem lse_real {N : ℕ} (Z : Fin N → Fin 256 → EReal) (hZ : ∀ (n : Fin N) (c : Fin 256), ∃ r : ℝ, Z n c = (r : EReal))
    (n : Fin N) : ∃ L : ℝ, lse Z n = (L : EReal) := by
  obtain ⟨s, hs⟩ := sh_real Z hZ n
  refine ⟨Real.log (∑ c : Fin 256, Real.exp (s c)), ?_⟩
  unfold lse
  simp_rw [hs, Ideal.exp_coe]
  rw [← coe_finset_sum, Ideal.log_coe, if_neg]
  rw [not_le]
  exact Finset.sum_pos (fun c _ => Real.exp_pos (s c)) Finset.univ_nonempty

/-- In a row of reals, the sum of s n c - L n over the 256 columns is (sum of s n c) - 256 * L n. -/
theorem sum_lf_eq {N : ℕ} (Z : Fin N → Fin 256 → EReal) (hZ : ∀ (n : Fin N) (c : Fin 256), ∃ r : ℝ, Z n c = (r : EReal))
    (n : Fin N) : ∑ c : Fin 256, lf Z n c = (∑ c : Fin 256, sh Z n c) - c256 * lse Z n := by
  obtain ⟨s, hs⟩ := sh_real Z hZ n
  obtain ⟨L, hL⟩ := lse_real Z hZ n
  have h1 : ∀ c, lf Z n c = ((s c - L : ℝ) : EReal) := fun c => by
    unfold lf; rw [hs, hL, EReal.coe_sub]
  simp_rw [h1, hs]
  rw [hL, c256_eq, ← coe_finset_sum, ← coe_finset_sum, ← EReal.coe_mul, ← EReal.coe_sub]
  congr 1
  rw [Finset.sum_sub_distrib, Finset.sum_const, Finset.card_univ, Fintype.card_fin, nsmul_eq_mul]
  norm_num

/-- With every feature a real number the two arrangements of the pairwise term are one number. -/
theorem term2K_eq_term2R {N : ℕ} (Z : Fin N → Fin 256 → EReal) (hZ : ∀ (n : Fin N) (c : Fin 256), ∃ r : ℝ, Z n c = (r : EReal)) :
    term2K Z = term2R Z := by
  unfold term2K term2R
  refine Finset.sum_congr rfl fun n _ => ?_
  rw [sum_lf_eq Z hZ n]

/-- Negation passes through the division by 65536. -/
theorem neg_div_c65536 (a : EReal) : -(Ideal.div a c65536) = Ideal.div (-a) c65536 := by
  -- dividing by the real 65536 is multiplying by the real 1 / 65536, and -(a * y) = (-a) * y
  rw [c65536_eq, Ideal.div_coe (by norm_num), Ideal.div_coe (by norm_num), neg_mul]

end Cert.Xmi

end
-- ==== Proof.KReg0.lean ====
/-
  The first pallas_call's result. Its grid is 2 halves x 16 row blocks of 2048 rows; half h accumulates, in cell (0, 0)
  of its own [8, 128] block of the [16, 128] result, the sum over its 16 blocks of each block's masked-score total, and
  writes the block back after its last point. The two cells the host adds are therefore the total over all 65536 rows.
-/
import proofs.«401249_j45887430590815_3_alg».proof.Proof.Gen.KernelIdeal.Frame
import proofs.«401249_j45887430590815_3_alg».proof.Proof.KDefs
import proofs.«401249_j45887430590815_3_alg».proof.Proof.KPay0
import proofs.«401249_j45887430590815_3_alg».proof.Proof.Spec
import proofs.«401249_j45887430590815_3_alg».proof.Proof.Math
import proofs.«401249_j45887430590815_3_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg0

open Cert.KernelIdeal Cert.KernelIdeal.Gen Cert.KernelIdeal.HostK
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## What each case of the body leaves in the output tile -/

section Pieces
variable {F : FTy → Type} [FloatOps F]

/-- The offsets of a whole-buffer access are zero on both axes. -/
theorem hz : (![0, 0] : Fin 2 → Nat) = fun _ => 0 := funext fun a => by fin_cases a <;> rfl

/-- A point that does not reset: the one store covers the tile, and its value is the accumulator update of the label
    block x1, the score block x0 and the tile's running contents xo, each read whole. -/
theorem out_B (c : Dev nD) (i : grid0.Coords) (a2 : Memref sig .tc .vmem S2048x1000 .f32) (h2 : a2.IsWhole)
    (a3 : Memref sig .tc .vmem S2048x1 .i32) (h3 : a3.IsWhole) (a4 : Memref sig .tc .vmem S8x128 .f32) (h4 : a4.IsWhole)
    (hc : ¬cond0_0 i) (x0 : Vec F S2048x1000 .f32) (x1 : Vec F S2048x1 .i32) (xo : Vec F S8x128 .f32) :
    out0_B_2 c i a2 h2 a3 h3 a4 h4 hc x0 x1 xo = k0_pay2 x1 x0 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S2048x1000) hz,
    View.ld_unit_zero (S := S2048x1) hz, View.ld_unit_zero (S := S8x128) hz]

/-- A resetting point: the zero tile is stored first, read back whole, and the same update is stored over it. -/
theorem out_A (c : Dev nD) (i : grid0.Coords) (a2 : Memref sig .tc .vmem S2048x1000 .f32) (h2 : a2.IsWhole)
    (a3 : Memref sig .tc .vmem S2048x1 .i32) (h3 : a3.IsWhole) (a4 : Memref sig .tc .vmem S8x128 .f32) (h4 : a4.IsWhole)
    (hc : cond0_0 i) (x0 : Vec F S2048x1000 .f32) (x1 : Vec F S2048x1 .i32) :
    out0_A_2 c i a2 h2 a3 h3 a4 h4 hc x0 x1 = k0_pay2 x1 x0 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S2048x1000) hz,
    View.ld_unit_zero (S := S2048x1) hz, View.ld_unit_zero (S := S8x128) hz]
end Pieces

/-! ## The input blocks, read where they sit in their arrays -/

section Blocks

/-- The score block and the label block of point t, and the two arrays, at their literal shapes. -/
abbrev xblk (c : Dev nD) (t : Fin cfg0.N) : Vec Ideal S2048x1000 .f32 := iblk0 V c 0 t
abbrev lblk (c : Dev nD) (t : Fin cfg0.N) : Vec Ideal S2048x1 .i32 := iblk0 V c 1 t
abbrev xarr (c : Dev nD) : Vec Ideal S65536x1000 .f32 := V c main_arg0
abbrev larr (c : Dev nD) : Vec Ideal S65536x1 .i32 := V c main_v0

/-- The grid has 32 points. -/
theorem N32 (t : Fin cfg0.N) : t.val < 32 := lt_of_lt_of_eq t.isLt (show cfg0.N = 32 from N_0)

/-- Row r of block t is row 2048 t + r < 32 * 2048 of the array. -/
theorem row_lt (t : Fin cfg0.N) (r : Fin 2048) : 2048 * t.val + r.val < 65536 := by
  have := N32 t; have := r.isLt; omega

/-- Both input windows' block index at point t = 16 h + i is (t, 0): the index map computes 16 h + i. -/
theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = t.val ∧ win0_1.index t 1 = 0 :=
  (by decide +kernel : ∀ t : Fin grid0.N, win0_1.index t 0 = t.val ∧ win0_1.index t 1 = 0)

/-- Entry (r, k) of the score block of point t is entry (2048 t + r, k) of the scores: block index times block size plus
    the coordinate inside the block, on each axis. -/
theorem xblk_apply (c : Dev nD) (t : Fin cfg0.N) (r : Fin 2048) (k : Fin 1000) :
    xblk V c t (ix2 r k) = xarr V c (ix2 ⟨2048 * t.val + r.val, row_lt t r⟩ k) := by
  show ((cfg0.win 0).blk t).view.read (Elt Ideal) (V c (Pipeline.arrRef spec0 0)) (ix2 r k) = _
  rw [View.read_apply]
  show V c main_arg0 _ = V c main_arg0 _
  congr 1
  funext a
  apply Fin.ext
  match a with
  | ⟨0, _⟩ => show win0_0.index t 0 * 2048 + 1 * r.val = 2048 * t.val + r.val; rw [(index0 t).1]; omega
  | ⟨1, _⟩ => show win0_0.index t 1 * 1000 + 1 * k.val = k.val; rw [(index0 t).2]; omega

/-- Entry (r, 0) of the label block of point t is entry (2048 t + r, 0) of the label column. -/
theorem lblk_apply (c : Dev nD) (t : Fin cfg0.N) (r : Fin 2048) :
    lblk V c t (ix2 r (0 : Fin 1)) = larr V c (ix2 ⟨2048 * t.val + r.val, row_lt t r⟩ (0 : Fin 1)) := by
  show ((cfg0.win 1).blk t).view.read (Elt Ideal) (V c (Pipeline.arrRef spec0 1)) (ix2 r (0 : Fin 1)) = _
  rw [View.read_apply]
  show V c main_v0 _ = V c main_v0 _
  congr 1
  funext a
  apply Fin.ext
  match a with
  | ⟨0, _⟩ => show win0_1.index t 0 * 2048 + 1 * r.val = 2048 * t.val + r.val; rw [(index1 t).1]; omega
  | ⟨1, _⟩ => show win0_1.index t 1 * 1 + 1 * 0 = 0; rw [(index1 t).2]
end Blocks

/-! ## The tile after each point: a fold over the half's points -/

section Run

/-- The masked-score total of the block of 2048 rows at point n (0 for an n past the grid). -/
def bt (c : Dev nD) (n : ℕ) : EReal :=
  if h : n < cfg0.N then
    Cert.Xmi.nllTotal (fun (r : Fin 2048) (k : Fin 1000) => (xblk V c ⟨n, h⟩ (ix2 r k) : EReal))
      (fun r => lblk V c ⟨n, h⟩ (ix2 r (0 : Fin 1)))
  else 0

/-- What point n adds to cell (a, b) of the tile: its block total in cell (0, 0), nothing elsewhere. -/
def cellAdd (c : Dev nD) (n a b : ℕ) : EReal := if a = 0 ∧ b = 0 then bt V c n else 0

/-- The same as a function of the tile index. -/
def addend (c : Dev nD) (n : ℕ) (i : S8x128.Idx) : EReal := cellAdd V c n (i 0).val (i 1).val

/-- The tile a resetting point leaves: the update applied to the zero tile. -/
def stepA (c : Dev nD) (n : ℕ) (h : n < cfg0.N) : Vec Ideal S8x128 .f32 :=
  k0_pay2 (lblk V c ⟨n, h⟩) (xblk V c ⟨n, h⟩) (k0_pay1 (F := Ideal))

/-- The tile an accumulating point leaves over the running contents acc. -/
def stepB (c : Dev nD) (n : ℕ) (h : n < cfg0.N) (acc : Vec Ideal S8x128 .f32) : Vec Ideal S8x128 .f32 :=
  k0_pay2 (lblk V c ⟨n, h⟩) (xblk V c ⟨n, h⟩) acc

theorem stepA_apply (c : Dev nD) (n : ℕ) (h : n < cfg0.N) (i : S8x128.Idx) :
    (stepA V c n h i : EReal) = 0 + addend V c n i := by
  obtain ⟨a, b, rfl⟩ : ∃ (a : Fin 8) (b : Fin 128), i = ix2 a b := ⟨i 0, i 1, eq_ix2 i⟩
  unfold stepA
  rw [Cert.KernelIdeal.Pay0.pay2_apply, Cert.KernelIdeal.Pay0.pay1_apply]
  unfold addend cellAdd bt
  rw [dif_pos h]

theorem stepB_apply (c : Dev nD) (n : ℕ) (h : n < cfg0.N) (acc : Vec Ideal S8x128 .f32) (i : S8x128.Idx) :
    (stepB V c n h acc i : EReal) = acc i + addend V c n i := by
  obtain ⟨a, b, rfl⟩ : ∃ (a : Fin 8) (b : Fin 128), i = ix2 a b := ⟨i 0, i 1, eq_ix2 i⟩
  unfold stepB
  rw [Cert.KernelIdeal.Pay0.pay2_apply]
  unfold addend cellAdd bt
  rw [dif_pos h]

/-- At the first point of a half the tile is the update of the zero tile. -/
theorem outs_reset (c : Dev nD) (n : ℕ) (h : n < cfg0.N) (h0 : n % 16 = 0) : outsAt0 V c n h = stepA V c n h :=
  (outsAt0_A V c ⟨n, h⟩ h0).trans
    (out_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      ((hcond0_0 ⟨n, h⟩).mpr h0) (iblk0 V c 0 ⟨n, h⟩) (iblk0 V c 1 ⟨n, h⟩))

/-- At every other point it is the update of what the point before left. -/
theorem outs_step (c : Dev nD) (n : ℕ) (h : n + 1 < cfg0.N) (hB : ¬(n + 1) % 16 = 0) :
    outsAt0 V c (n + 1) h = stepB V c (n + 1) h (outsAt0 V c n (Nat.lt_of_succ_lt h)) :=
  (outsAt0_B V c ⟨n + 1, h⟩ hB).trans
    (out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hB ((hcond0_0 ⟨n + 1, h⟩).mp hh)) (iblk0 V c 0 ⟨n + 1, h⟩) (iblk0 V c 1 ⟨n + 1, h⟩)
      (outsAt0 V c n (Nat.lt_of_succ_lt h)))

/-- Cell (a, b) of the tile half q holds after its last point: 0 plus what its 16 points added there. -/
def tileV (c : Dev nD) (q a b : ℕ) : EReal := 0 + ∑ s ∈ Finset.range 16, cellAdd V c (16 * q + s) a b

/-- After the last point of a half (t = 15 mod 16) the tile is that half's: in each cell, 0 plus the 16 addends of the half's points. -/
theorem tile_last (c : Dev nD) (t : Fin cfg0.N) (hf : t.val % 16 = 15) (i : S8x128.Idx) :
    (outsAt0 V c t.val t.isLt i : EReal) = tileV V c (t.val / 16) (i 0).val (i 1).val := by
  show _ = 0 + ∑ s ∈ Finset.range 16, addend V c (16 * (t.val / 16) + s) i
  have h' : 16 * (t.val / 16) + t.val % 16 < cfg0.N := by rw [Nat.div_add_mod]; exact t.isLt
  rw [Pipeline.eq_accAt_of_mod (outsAt0 V c) 16 (stepA V c) (stepB V c) (outs_reset V c) (outs_step V c) (by norm_num) t.val t.isLt h']
  rw [Pipeline.accAt_add_apply (ι := S8x128.Idx) (β := EReal) (stepA V c) (stepB V c) (fun _ => 0) (addend V c) (16 * (t.val / 16)) 15
    (fun h i => stepA_apply V c _ h i) (fun n h acc i _ _ => stepB_apply V c n h acc i) (t.val % 16) (by omega) h' i]
  rw [hf]
end Run

/-! ## The result array after the region -/

section Result

/-- The result array: rows 8 q .. 8 q + 7 are the tile of half q. -/
def G (c : Dev nD) : Buf (Elt Ideal) ((c : Thread nD τ).loc main_v1) :=
  fun (j : S16x128.Idx) => tileV V c ((j 0).val / 8) ((j 0).val % 8) (j 1).val

/-- The output window's block index at point t: (the half, 0). -/
theorem index2 : ∀ t : Fin cfg0.N, win0_2.index t 0 = t.val / 16 ∧ win0_2.index t 1 = 0 :=
  (by decide +kernel : ∀ t : Fin grid0.N, win0_2.index t 0 = t.val / 16 ∧ win0_2.index t 1 = 0)

/-- Cell y of the block of point t sits in the array at row 8 (t / 16) + y 0, column y 1: there the array holds
    the tile of half t / 16 at y. -/
theorem G_emb (c : Dev nD) (t : Fin cfg0.N) (y : ((cfg0.win 2).xblock (grid0.coords t)).Idx) :
    G V c (((cfg0.win 2).blk t).view.emb y) = tileV V c (t.val / 16) (y 0).val (y 1).val := by
  have hy0 : (y 0).val < 8 := (y 0).isLt
  have e0 : ((((cfg0.win 2).blk t).view.emb y) 0).val = win0_2.index t 0 * 8 + 1 * (y 0).val := rfl
  have e1 : ((((cfg0.win 2).blk t).view.emb y) 1).val = win0_2.index t 1 * 128 + 1 * (y 1).val := rfl
  have a1 : (t.val / 16 * 8 + 1 * (y 0).val) / 8 = t.val / 16 := by omega
  have a2 : (t.val / 16 * 8 + 1 * (y 0).val) % 8 = (y 0).val := by omega
  have a3 : 0 * 128 + 1 * (y 1).val = (y 1).val := by omega
  show tileV V c (((((cfg0.win 2).blk t).view.emb y) 0).val / 8) (((((cfg0.win 2).blk t).view.emb y) 0).val % 8)
      ((((cfg0.win 2).blk t).view.emb y) 1).val = _
  rw [e0, e1, (index2 t).1, (index2 t).2, a1, a2, a3]

/-- What a half's last point writes back is that half's block of the result array. -/
theorem flushed_eq (c : Dev nD) (t : Fin cfg0.N) (hf : (cfg0.win 2).flush t = true) :
    (dat0 V c).flushed 2 t = ((cfg0.win 2).blk t).view.read (Elt Ideal) (G V c) := by
  have h15 : t.val % 16 = 15 := (flush0_2 t).mp hf
  show (cfg0.win 2).cut (grid0.coords t) ((dat0 V c).after 2 t) = _
  rw [after0_2]
  funext y
  rw [View.read_apply]
  show (outsAt0 V c t.val t.isLt ((cfg0.win 2).xinj (grid0.coords t) y) : EReal) = G V c (((cfg0.win 2).blk t).view.emb y)
  rw [tile_last V c t h15, G_emb]

/-- The result array after the region. -/
theorem final_arr (c : Dev nD) : (dat0 V c).arrAt 2 cfg0.N = G V c :=
  (dat0 V c).arrAt_eq_of_cover 2 (G V c) (flushed_eq V c) fun i => by
    have hi0 : (i 0 : ℕ) < 16 := (i 0).isLt
    have hi1 : (i 1 : ℕ) < 128 := (i 1).isLt
    have hN : cfg0.N = 32 := N_0
    -- row i 0 lies in the block of half (i 0) / 8, written back at that half's last point
    obtain ⟨tq, htq⟩ : ∃ tq : Fin cfg0.N, tq.val = 16 * ((i 0 : ℕ) / 8) + 15 := ⟨⟨16 * ((i 0 : ℕ) / 8) + 15, by rw [hN]; omega⟩, rfl⟩
    refine ⟨tq, (flush0_2 tq).mpr (by rw [htq]; omega), ?_⟩
    show i ∈ ((View.whole main_v1).slice (win0_2.rect tq)).set
    rw [View.set_slice_whole, Rect.mem_set_unit]
    intro a
    match a with
    | ⟨0, _⟩ =>
      show win0_2.index tq 0 * 8 ≤ (i 0 : ℕ) ∧ (i 0 : ℕ) < win0_2.index tq 0 * 8 + 8
      rw [(index2 tq).1, htq]; omega
    | ⟨1, _⟩ =>
      show win0_2.index tq 1 * 128 ≤ (i 1 : ℕ) ∧ (i 1 : ℕ) < win0_2.index tq 1 * 128 + 128
      rw [(index2 tq).2]; omega
end Result

/-! ## The host term -/

section Pick
/-- The host term at its one index: cell (0, 0) plus cell (8, 0). -/
theorem pick2_apply (A : FVec Ideal S16x128 .f32) (j : S_.Idx) :
    pick2 (F := Ideal) A j = (A (ix2 (0 : Fin 16) (0 : Fin 128)) : EReal) + A (ix2 (8 : Fin 16) (0 : Fin 128)) := by
  have cast1 : ∀ (x : S1x1.Idx → Ideal .f32), shapeCast S_ x shapeCasts_S1x1_S_ j = x (ix2 (0 : Fin 1) (0 : Fin 1)) := fun x =>
    shapeCast_apply x shapeCasts_S1x1_S_ j (ix2 (0 : Fin 1) (0 : Fin 1)) (by
      have h1 := (S1x1.rowMajor (ix2 (0 : Fin 1) (0 : Fin 1))).isLt
      have h2 := (S_.rowMajor j).isLt
      have e1 : S1x1.numel = 1 := by decide
      have e2 : S_.numel = 1 := by decide
      omega)
  show pick2 (F := Ideal) A j = _
  unfold pick2
  rw [addf_apply, cast1, cast1]
  rw [extractStridedSlice_apply ![0, 0] A slices_S16x128_S1x1_0_0 (ix2 (0 : Fin 1) (0 : Fin 1)) (ix2 (0 : Fin 16) (0 : Fin 128))
      (fun a => match a with | ⟨0, _⟩ => rfl | ⟨1, _⟩ => rfl),
    extractStridedSlice_apply ![8, 0] A slices_S16x128_S1x1_8_0 (ix2 (0 : Fin 1) (0 : Fin 1)) (ix2 (8 : Fin 16) (0 : Fin 128))
      (fun a => match a with | ⟨0, _⟩ => rfl | ⟨1, _⟩ => rfl)]
end Pick

/-! ## The two halves' totals are the total over all 32 blocks -/

section Total

theorem cellAdd_zero (c : Dev nD) (n : ℕ) : cellAdd V c n 0 0 = bt V c n := if_pos ⟨rfl, rfl⟩

/-- The block total of point b is the masked-score total of rows 2048 b .. 2048 b + 2047 of the arrays. -/
theorem bt_eq (c : Dev nD) (T : Fin 65536 → BitVec 32)
    (hT : ∀ n : Fin 65536, V c main_v0 (ix2 n (0 : Fin 1)) = T n) (b : Fin 32) :
    bt V c b.val = Cert.Xmi.nllTotal (fun (r : Fin 2048) (k : Fin 1000) => (V c main_arg0 (ix2 (Cert.Xmi.blk 32 2048 65536 rfl b r) k) : EReal))
      (fun r => T (Cert.Xmi.blk 32 2048 65536 rfl b r)) := by
  have h : b.val < cfg0.N := lt_of_lt_of_eq b.isLt (show 32 = cfg0.N from N_0.symm)
  have hrow : ∀ r : Fin 2048, (⟨2048 * b.val + r.val, row_lt ⟨b.val, h⟩ r⟩ : Fin 65536) = Cert.Xmi.blk 32 2048 65536 rfl b r :=
    fun r => Fin.ext (by rw [Cert.Xmi.blk_val]; show 2048 * b.val + r.val = b.val * 2048 + r.val; omega)
  unfold bt
  rw [dif_pos h]
  refine congrArg₂ Cert.Xmi.nllTotal (funext fun r => funext fun k => ?_) (funext fun r => ?_)
  · rw [xblk_apply]
    exact congrArg (fun n => (V c main_arg0 (ix2 n k) : EReal)) (hrow r)
  · rw [lblk_apply]
    exact (congrArg (fun n => V c main_v0 (ix2 n (0 : Fin 1))) (hrow r)).trans (hT _)

/-- Cell (0, 0) of half q's tile is the sum of its 16 block totals. -/
theorem half_total (c : Dev nD) (q : Fin 2) :
    tileV V c q.val 0 0 = ∑ r : Fin 16, bt V c (Cert.Xmi.blk 2 16 32 rfl q r).val := by
  unfold tileV
  rw [zero_add, Finset.sum_range]
  refine Finset.sum_congr rfl fun r _ => ?_
  rw [cellAdd_zero, Cert.Xmi.blk_val, Nat.mul_comm]
end Total

/-- Cells (0, 0) and (8, 0) of the first call's result array add up to the masked-score total of the scores array
    and the label column the region finds. -/
theorem nll_cells (c : Dev nD) (T : Fin 65536 → BitVec 32)
    (hT : ∀ n : Fin 65536, V c main_v0 (ix2 n (0 : Fin 1)) = T n) :
    pick2 (F := Ideal) ((dat0 V c).arrAt 2 cfg0.N)
      = fun _ => Cert.Xmi.nllTotal (fun (n : Fin 65536) (k : Fin 1000) => V c main_arg0 (ix2 n k)) T := by
  -- the array is the two halves' tiles; the host term reads cell (0, 0) of each: the sum of that half's 16 block totals
  rw [final_arr V c]
  funext j
  rw [pick2_apply]
  have g0 : G V c (ix2 (0 : Fin 16) (0 : Fin 128)) = tileV V c (0 : Fin 2).val 0 0 := rfl
  have g8 : G V c (ix2 (8 : Fin 16) (0 : Fin 128)) = tileV V c (1 : Fin 2).val 0 0 := rfl
  -- the whole total is the sum over the 32 blocks of rows, regrouped as 2 halves of 16
  rw [g0, g8, half_total, half_total, Cert.Xmi.nllTotal_blocks 32 2048 65536 rfl]
  rw [Cert.Xmi.sum_fin_blocks 2 16 32 rfl, Fin.sum_univ_two]
  refine congrArg₂ (· + ·) (Finset.sum_congr rfl fun r _ => ?_) (Finset.sum_congr rfl fun r _ => ?_)
  · exact bt_eq V c T hT _
  · exact bt_eq V c T hT _

end Cert.KernelIdeal.Reg0

end
-- ==== Proof.KPay1.lean ====
/-
  The second kernel body's arithmetic, read at an index, at the ideal values. One grid point holds a block x of 4096
  rows of 256 features. Row by row the body takes the maximum, the shifted entries, the log of the sum of their
  exponentials L, lf = shifted - L and p = exp lf; it totals p * lf over the block, and per row multiplies the sum of
  p by (the sum of the shifted entries) - 256 * L and totals that over the rows. Each total is placed in cell (0, 0)
  of an [8, 128] tile of zeros and the tile is added to that result's accumulator.
-/
import proofs.«401249_j45887430590815_3_alg».proof.Proof.Gen.KernelIdeal.Skeleton
import proofs.«401249_j45887430590815_3_alg».proof.Proof.Spec
import proofs.«401249_j45887430590815_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay1

open Cert.KernelIdeal Cert.KernelIdeal.Gen
open Idealize.ShloMosaic Idealize.ShloMosaic.ValueIdx

/-! ### Words -/

/-- The word of a number below 2^32 is the zero word exactly when the number is zero. -/
theorem ofNat32_beq_zero (n : ℕ) (h : n < 4294967296) : (BitVec.ofNat 32 n == 0#32) = decide (n = 0) := by
  by_cases hn : n = 0
  · subst hn; rfl
  · have : ¬ (BitVec.ofNat 32 n = 0#32) := by
      intro e
      have := congrArg BitVec.toNat e
      simp only [BitVec.toNat_ofNat, BitVec.toNat_zero] at this
      rw [Nat.mod_eq_of_lt (by simpa using h)] at this
      exact hn this
    simp [hn, this]

/-- The conjunction of two one-bit words is set exactly when both are. -/
theorem ofBool_and_eq_one (p q : Bool) : (BitVec.ofBool p &&& BitVec.ofBool q = 1#1) ↔ (p = true ∧ q = true) := by
  cases p <;> cases q <;> decide

/-- The word 0xFF800000 is minus infinity. -/
theorem ofBits_neg_inf : Ideal.ofBits .f32 0xFF800000#32 = (⊥ : EReal) := by
  simp [Ideal.ofBits, Ideal.ieee]

/-! ### The layout operations of the body, read at an index -/

/-- A [1, 1] value broadcast to [8, 128] reads its one entry everywhere. -/
theorem broadcastTo_11_8x128_apply {α : Type} (v : S1x1.Idx → α) (a : Fin 8) (b : Fin 128) :
    broadcastTo S8x128 v broadcasts_S1x1_S8x128 (ix2 a b) = v (ix2 (0 : Fin 1) (0 : Fin 1)) := by
  refine broadcastTo_apply v broadcasts_S1x1_S8x128 (ix2 a b) (ix2 (0 : Fin 1) (0 : Fin 1)) fun ax => ?_
  match ax with
  | ⟨0, _⟩ => rfl
  | ⟨1, _⟩ => rfl

/-- A length-4096 vector as a column, repeated across 256 lanes, reads in (r, c) the vector's entry r. -/
theorem colBcast_apply {α : Type} (v : S4096.Idx → α) (r : Fin 4096) (c : Fin 256) :
    broadcastTo S4096x256 (shapeCast S4096x1 v shapeCasts_S4096_S4096x1) broadcasts_S4096x1_S4096x256 (ix2 r c) = v (ix1 r) := by
  refine (Cert.LibColumn.broadcastTo_a1_ab_apply _ broadcasts_S4096x1_S4096x256 r c).trans ?_
  exact Cert.LibColumn.shapeCast_a_a1_apply v shapeCasts_S4096_S4096x1 r 0

/-- A 4096 x 1 column repeated across 256 lanes reads in (r, c) the column's entry r. -/
theorem bcast_apply {α : Type} (v : S4096x1.Idx → α) (r : Fin 4096) (c : Fin 256) :
    broadcastTo S4096x256 v broadcasts_S4096x1_S4096x256 (ix2 r c) = v (ix2 r (0 : Fin 1)) :=
  Cert.LibColumn.broadcastTo_a1_ab_apply v broadcasts_S4096x1_S4096x256 r c

/-- A length-4096 vector as a column reads in (r, 0) the vector's entry r. -/
theorem col_apply {α : Type} (v : S4096.Idx → α) (r : Fin 4096) :
    shapeCast S4096x1 v shapeCasts_S4096_S4096x1 (ix2 r (0 : Fin 1)) = v (ix1 r) :=
  Cert.LibColumn.shapeCast_a_a1_apply v shapeCasts_S4096_S4096x1 r 0

/-- A one-entry vector as a [1, 1] value reads that entry. -/
theorem cell_apply {α : Type} (v : S1.Idx → α) :
    shapeCast S1x1 v shapeCasts_S1_S1x1 (ix2 (0 : Fin 1) (0 : Fin 1)) = v (ix1 (0 : Fin 1)) :=
  Cert.LibColumn.shapeCast_a_a1_apply v shapeCasts_S1_S1x1 0 0

/-! ### The reductions of the body, read at an index -/

/-- The index over row r with lane c put back is (r, c). -/
theorem lift_lane (r : Fin 4096) (c : Fin 256) :
    reduces_S4096x256_S4096.lift (ix1 r) c = ix2 r c := by
  funext ax
  match ax with
  | ⟨0, _⟩ => exact Fin.ext rfl
  | ⟨1, _⟩ => exact Fin.ext rfl

/-- The index of a one-column array over the single result cell with row r put back is (r, 0). -/
theorem lift_row (r : Fin 4096) :
    reduces_S4096x1_S1.lift (ix1 (0 : Fin 1)) r = ix2 r (0 : Fin 1) := by
  funext ax
  match ax with
  | ⟨0, _⟩ => exact Fin.ext rfl
  | ⟨1, _⟩ => exact Fin.ext rfl

/-- A lane maximum from minus infinity, read in row r: the fold of max over the row's 256 entries. -/
theorem rowMax_apply (x : FVec Ideal S4096x256 .f32) (r : Fin 4096) :
    multiReduction (F := Ideal) .maximumf [1] S4096 x 0xFF800000#32 reduces_S4096x256_S4096 (.inl rfl) rfl (ix1 r)
      = (Finset.univ : Finset (Fin 256)).fold max (⊥ : EReal) (fun c => x (ix2 r c)) := by
  refine (Ideal.multiReduction_maximumf_single x 0xFF800000#32 reduces_S4096x256_S4096 (.inl rfl) rfl (ix1 r)).trans ?_
  have hf : (x ∘ reduces_S4096x256_S4096.lift (ix1 r)) = fun c : Fin 256 => x (ix2 r c) :=
    funext fun c => congrArg x (lift_lane r c)
  rw [hf]
  show (Finset.univ : Finset (Fin 256)).fold max (Ideal.ofBits .f32 0xFF800000#32) _ = _
  rw [ofBits_neg_inf]

/-- A lane sum from zero, read in row r: the sum of the row's 256 entries. -/
theorem rowSum_apply (x : FVec Ideal S4096x256 .f32) (r : Fin 4096) :
    multiReduction (F := Ideal) .add [1] S4096 x 0x00000000#32 reduces_S4096x256_S4096 (.inl rfl) rfl (ix1 r)
      = ∑ c : Fin 256, x (ix2 r c) := by
  refine (Ideal.multiReduction_add_single x 0x00000000#32 reduces_S4096x256_S4096 (.inl rfl) rfl (ix1 r)).trans ?_
  exact Finset.sum_congr rfl fun c _ => congrArg x (lift_lane r c)

/-- A sum down a column of 4096 entries, read at its single cell: the sum of the entries. -/
theorem colSum_apply (v : FVec Ideal S4096x1 .f32) :
    multiReduction (F := Ideal) .add [0] S1 v 0x00000000#32 reduces_S4096x1_S1 (.inl rfl) rfl (ix1 (0 : Fin 1))
      = ∑ r : Fin 4096, v (ix2 r (0 : Fin 1)) := by
  refine (Ideal.multiReduction_add_single v 0x00000000#32 reduces_S4096x1_S1 (.inl rfl) rfl (ix1 (0 : Fin 1))).trans ?_
  exact Finset.sum_congr rfl fun r _ => congrArg v (lift_row r)

/-! ### The row-wise quantities of one block -/

section Rows
variable (x : Vec Ideal S4096x256 .f32)

/-- The block as a function of row and feature. -/
abbrev blockFn : Fin 4096 → Fin 256 → EReal := fun r k => x (ix2 r k)

/-- The shifted entries: the entry minus its row's maximum. -/
theorem pay5_apply (r : Fin 4096) (c : Fin 256) :
    k1_pay5 x (ix2 r c) = Cert.Xmi.sh (blockFn x) r c := by
  unfold k1_pay5
  show (x (ix2 r c) : EReal)
      - broadcastTo S4096x256 (shapeCast S4096x1
          (multiReduction (F := Ideal) .maximumf [1] S4096 x 0xFF800000#32 reduces_S4096x256_S4096 (.inl rfl) rfl)
          shapeCasts_S4096_S4096x1) broadcasts_S4096x1_S4096x256 (ix2 r c) = _
  rw [colBcast_apply, rowMax_apply]
  rfl

/-- The log of the row's sum of exponentials of the shifted entries. -/
theorem pay6_apply (r : Fin 4096) :
    k1_pay6 x (ix2 r (0 : Fin 1)) = Cert.Xmi.lse (blockFn x) r := by
  unfold k1_pay6
  show Ideal.log (shapeCast S4096x1
      (multiReduction (F := Ideal) .add [1] S4096 (exp (k1_pay5 x)) 0x00000000#32 reduces_S4096x256_S4096 (.inl rfl) rfl)
      shapeCasts_S4096_S4096x1 (ix2 r (0 : Fin 1))) = _
  rw [col_apply, rowSum_apply]
  unfold Cert.Xmi.lse
  refine congrArg Ideal.log (Finset.sum_congr rfl fun c _ => ?_)
  show Ideal.exp (k1_pay5 x (ix2 r c)) = _
  rw [pay5_apply]

/-- The log-softmax entries: shifted minus L. -/
theorem pay7_apply (r : Fin 4096) (c : Fin 256) :
    k1_pay7 x (ix2 r c) = Cert.Xmi.lf (blockFn x) r c := by
  unfold k1_pay7
  show (k1_pay5 x (ix2 r c) : EReal) - broadcastTo S4096x256 (k1_pay6 x) broadcasts_S4096x1_S4096x256 (ix2 r c) = _
  rw [bcast_apply, pay5_apply, pay6_apply]
  rfl

/-- The probabilities: the exponential of the log-softmax entries. -/
theorem pay8_apply (r : Fin 4096) (c : Fin 256) :
    k1_pay8 x (ix2 r c) = Cert.Xmi.pr (blockFn x) r c := by
  unfold k1_pay8
  show Ideal.exp (k1_pay7 x (ix2 r c)) = _
  rw [pay7_apply]
  rfl

end Rows

/-! ### The stored values -/

/-- The position mask is set in cell (0, 0) only. -/
theorem pay9_apply (a : Fin 8) (b : Fin 128) : k1_pay9 (ix2 a b) = 1#1 ↔ (a.val = 0 ∧ b.val = 0) := by
  unfold k1_pay9
  show IntOp.andi (IntOp.cmpi .eq (iota .tc S8x128 32 [0] iota_S8x128_d0_w32 (ix2 a b)) 0#32)
      (IntOp.cmpi .eq (iota .tc S8x128 32 [1] iota_S8x128_d1_w32 (ix2 a b)) 0#32) = 1#1 ↔ _
  rw [iota_single_apply, iota_single_apply]
  show BitVec.ofBool (BitVec.ofNat 32 a.val == 0#32) &&& BitVec.ofBool (BitVec.ofNat 32 b.val == 0#32) = 1#1 ↔ _
  rw [ofBool_and_eq_one, ofNat32_beq_zero a.val (by have := a.isLt; omega), ofNat32_beq_zero b.val (by have := b.isLt; omega)]
  simp only [decide_eq_true_eq]

/-- The two tiles the reset stores are zero everywhere. -/
theorem pay3_apply (a : Fin 8) (b : Fin 128) : k1_pay3 (F := Ideal) (ix2 a b) = (0 : EReal) := by
  unfold k1_pay3
  show Ideal.ofBits .f32 0x00000000#32 = 0
  exact Ideal.ofBits_zero_f32
theorem pay4_apply (a : Fin 8) (b : Fin 128) : k1_pay4 (F := Ideal) (ix2 a b) = (0 : EReal) := by
  unfold k1_pay4
  show Ideal.ofBits .f32 0x00000000#32 = 0
  exact Ideal.ofBits_zero_f32

/-- The first result's tile: the block's total of p * lf in cell (0, 0), zero elsewhere. -/
theorem pay10_apply (x : Vec Ideal S4096x256 .f32) (a : Fin 8) (b : Fin 128) :
    k1_pay10 x (ix2 a b)
      = (if a.val = 0 ∧ b.val = 0 then Cert.Xmi.term1 (fun (r : Fin 4096) (k : Fin 256) => (x (ix2 r k) : EReal)) else 0) := by
  -- the [1, 1] value: the sum over the rows of the lane sums of p * lf
  have htot : shapeCast S1x1 (shapeCast S1x1
        (multiReduction (F := Ideal) .add [0] S1
          (shapeCast S4096x1
            (multiReduction (F := Ideal) .add [1] S4096 (mulf (k1_pay8 x) (k1_pay7 x)) 0x00000000#32
              reduces_S4096x256_S4096 (.inl rfl) rfl)
            shapeCasts_S4096_S4096x1)
          0x00000000#32 reduces_S4096x1_S1 (.inl rfl) rfl)
        shapeCasts_S1_S1x1) shapeCasts_S1x1_S1x1 (ix2 (0 : Fin 1) (0 : Fin 1))
      = Cert.Xmi.term1 (blockFn x) := by
    rw [shapeCast_self, cell_apply, colSum_apply]
    unfold Cert.Xmi.term1
    refine Finset.sum_congr rfl fun r _ => ?_
    rw [col_apply, rowSum_apply]
    refine Finset.sum_congr rfl fun c _ => ?_
    rw [mulf_apply, pay8_apply, pay7_apply]
  unfold k1_pay10
  show (if k1_pay9 (ix2 a b) = 1#1 then broadcastTo S8x128 _ broadcasts_S1x1_S8x128 (ix2 a b)
      else Ideal.ofBits .f32 0x00000000#32) = _
  rw [broadcastTo_11_8x128_apply, htot, Ideal.ofBits_zero_f32]
  by_cases h : a.val = 0 ∧ b.val = 0
  · rw [if_pos h]; exact if_pos ((pay9_apply a b).mpr h)
  · rw [if_neg h]; exact if_neg (fun e => h ((pay9_apply a b).mp e))

/-- The second result's [1, 1] value: the block's pairwise total in the kernel's arrangement. -/
theorem pay11_apply (x : Vec Ideal S4096x256 .f32) :
    k1_pay11 x (ix2 (0 : Fin 1) (0 : Fin 1)) = Cert.Xmi.term2K (fun (r : Fin 4096) (k : Fin 256) => (x (ix2 r k) : EReal)) := by
  unfold k1_pay11
  show shapeCast S1x1 (shapeCast S1x1
        (multiReduction (F := Ideal) .add [0] S1 _ 0x00000000#32 reduces_S4096x1_S1 (.inl rfl) rfl)
        shapeCasts_S1_S1x1) shapeCasts_S1x1_S1x1 (ix2 (0 : Fin 1) (0 : Fin 1)) = _
  rw [shapeCast_self, cell_apply, colSum_apply]
  unfold Cert.Xmi.term2K
  refine Finset.sum_congr rfl fun r _ => ?_
  -- row r: (the lane sum of p) * ((the lane sum of the shifted entries) - 256 * L)
  show (shapeCast S4096x1
          (multiReduction (F := Ideal) .add [1] S4096 (k1_pay8 x) 0x00000000#32 reduces_S4096x256_S4096 (.inl rfl) rfl)
          shapeCasts_S4096_S4096x1 (ix2 r (0 : Fin 1)) : EReal)
      * ((shapeCast S4096x1
          (multiReduction (F := Ideal) .add [1] S4096 (k1_pay5 x) 0x00000000#32 reduces_S4096x256_S4096 (.inl rfl) rfl)
          shapeCasts_S4096_S4096x1 (ix2 r (0 : Fin 1)) : EReal)
        - Ideal.ofBits .f32 0x43800000#32 * k1_pay6 x (ix2 r (0 : Fin 1))) = _
  rw [col_apply, col_apply, rowSum_apply, rowSum_apply, pay6_apply]
  have hp : (∑ c : Fin 256, k1_pay8 x (ix2 r c)) = ∑ c : Fin 256, Cert.Xmi.pr (blockFn x) r c :=
    Finset.sum_congr rfl fun c _ => pay8_apply x r c
  have hs : (∑ c : Fin 256, k1_pay5 x (ix2 r c)) = ∑ c : Fin 256, Cert.Xmi.sh (blockFn x) r c :=
    Finset.sum_congr rfl fun c _ => pay5_apply x r c
  rw [hp, hs]

/-- The first accumulator's update, entry by entry. -/
theorem pay1_apply (v40 : FVec Ideal S8x128 .f32) (acc : Vec Ideal S8x128 .f32) (a : Fin 8) (b : Fin 128) :
    k1_pay1 v40 acc (ix2 a b) = (acc (ix2 a b) : EReal) + v40 (ix2 a b) := by
  unfold k1_pay1
  show (shapeCast S8x128 acc shapeCasts_S8x128_S8x128 (ix2 a b) : EReal) + v40 (ix2 a b) = _
  rw [shapeCast_self]

/-- The second accumulator's update, entry by entry: the [1, 1] value enters where the mask is set. -/
theorem pay2_apply (v36 : IVec S8x128 1) (v41 : FVec Ideal S1x1 .f32) (acc : Vec Ideal S8x128 .f32) (a : Fin 8) (b : Fin 128) :
    k1_pay2 v36 v41 acc (ix2 a b)
      = (acc (ix2 a b) : EReal) + (if v36 (ix2 a b) = 1#1 then v41 (ix2 (0 : Fin 1) (0 : Fin 1)) else 0) := by
  unfold k1_pay2
  show (shapeCast S8x128 acc shapeCasts_S8x128_S8x128 (ix2 a b) : EReal)
      + (if v36 (ix2 a b) = 1#1 then broadcastTo S8x128 v41 broadcasts_S1x1_S8x128 (ix2 a b) else Ideal.ofBits .f32 0x00000000#32) = _
  rw [shapeCast_self, broadcastTo_11_8x128_apply, Ideal.ofBits_zero_f32]

end Cert.KernelIdeal.Pay1

end
-- ==== Proof.KReg1.lean ====
/-
  The second pallas_call's two results. Its grid is 2 halves x 8 row blocks of 4096 rows; half h accumulates in cell
  (0, 0) of its [8, 128] block of each [16, 128] result the sum over its 8 blocks of the block's total of p * lf
  (first result) and of (row sum of p) * ((row sum of shifted) - 256 * L) (second result).
-/
import proofs.«401249_j45887430590815_3_alg».proof.Proof.Gen.KernelIdeal.Frame
import proofs.«401249_j45887430590815_3_alg».proof.Proof.KDefs
import proofs.«401249_j45887430590815_3_alg».proof.Proof.KPay1
import proofs.«401249_j45887430590815_3_alg».proof.Proof.Spec
import proofs.«401249_j45887430590815_3_alg».proof.Proof.Math
import proofs.«401249_j45887430590815_3_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg1

open Cert.KernelIdeal Cert.KernelIdeal.Gen Cert.KernelIdeal.HostK
open Idealize.ShloMosaic Idealize.ShloMosaic.TcCoe Idealize.SL.Sem Idealize.ShloMosaic.ValueIdx
open Idealize.ShloMosaic.Pipeline (Dat)

section Pieces
variable {F : FTy → Type} [FloatOps F]

/-- The offsets (0, 0) of every load and store of a whole tile or block, as the constant function. -/
theorem hz : (![0, 0] : Fin 2 → Nat) = fun _ => 0 := funext fun a => by fin_cases a <;> rfl

/-- An accumulating point leaves in the first tile the old tile plus the block's first tile. -/
theorem pieceB1 (c : Dev nD) (i : grid1.Coords) (a2 : Memref sig .tc .vmem S4096x256 .f32) (h2 : a2.IsWhole)
    (a3 : Memref sig .tc .vmem S8x128 .f32) (h3 : a3.IsWhole) (a4 : Memref sig .tc .vmem S8x128 .f32) (h4 : a4.IsWhole)
    (hc : ¬cond1_0 i) (x : Vec F S4096x256 .f32) (xo1 xo2 : Vec F S8x128 .f32) :
    out1_B_1 c i a2 h2 a3 h3 a4 h4 hc x xo1 xo2 = k1_pay1 (k1_pay10 x) xo1 := by
  unfold out1_B_1
  rw [View.read_writes_eq_canon _ _ _ (cover1_B_1 c i a2 h2 a3 h3 a4 h4 hc x xo1 xo2)]
  unfold kernelRun1_B
  dsimp only
  sl_unfold_words
  rw [View.canon_unit_zero hz]
  simp only [View.readAt_eq_ld, h2.read_unread, h3.read_unread, View.ld_unit_zero (S := S8x128) hz,
    View.ld_unit_zero (S := S4096x256) hz]

/-- An accumulating point leaves in the second tile the old tile plus the block's pairwise total under the mask. -/
theorem pieceB2 (c : Dev nD) (i : grid1.Coords) (a2 : Memref sig .tc .vmem S4096x256 .f32) (h2 : a2.IsWhole)
    (a3 : Memref sig .tc .vmem S8x128 .f32) (h3 : a3.IsWhole) (a4 : Memref sig .tc .vmem S8x128 .f32) (h4 : a4.IsWhole)
    (hc : ¬cond1_0 i) (x : Vec F S4096x256 .f32) (xo1 xo2 : Vec F S8x128 .f32) :
    out1_B_2 c i a2 h2 a3 h3 a4 h4 hc x xo1 xo2 = k1_pay2 k1_pay9 (k1_pay11 x) xo2 := by
  unfold out1_B_2
  rw [View.read_writes_eq_canon _ _ _ (cover1_B_2 c i a2 h2 a3 h3 a4 h4 hc x xo1 xo2)]
  unfold kernelRun1_B
  dsimp only
  sl_unfold_words
  rw [View.canon_unit_zero hz]
  simp only [View.readAt_eq_ld, h2.read_unread, h4.read_unread, View.ld_unit_zero (S := S8x128) hz,
    View.ld_unit_zero (S := S4096x256) hz]

/-- A resetting point stores the zero tile first, so it leaves the zero tile plus the block's first tile. -/
theorem pieceA1 (c : Dev nD) (i : grid1.Coords) (a2 : Memref sig .tc .vmem S4096x256 .f32) (h2 : a2.IsWhole)
    (a3 : Memref sig .tc .vmem S8x128 .f32) (h3 : a3.IsWhole) (a4 : Memref sig .tc .vmem S8x128 .f32) (h4 : a4.IsWhole)
    (hc : cond1_0 i) (x : Vec F S4096x256 .f32) :
    out1_A_1 c i a2 h2 a3 h3 a4 h4 hc x = k1_pay1 (k1_pay10 x) k1_pay3 := by
  unfold out1_A_1
  rw [View.read_writes_eq_canon _ _ _ (cover1_A_1 c i a2 h2 a3 h3 a4 h4 hc x)]
  unfold kernelRun1_A
  dsimp only
  sl_unfold_words
  rw [View.canon_cons_unit_zero (S := S8x128) hz, View.readCov_unit_zero (S := S8x128) _ hz]
  simp only [View.readAt_eq_ld, h2.read_unread, View.ld_unit_zero (S := S4096x256) hz]

/-- The same for the second tile: the zero tile plus the block's pairwise total under the mask. -/
theorem pieceA2 (c : Dev nD) (i : grid1.Coords) (a2 : Memref sig .tc .vmem S4096x256 .f32) (h2 : a2.IsWhole)
    (a3 : Memref sig .tc .vmem S8x128 .f32) (h3 : a3.IsWhole) (a4 : Memref sig .tc .vmem S8x128 .f32) (h4 : a4.IsWhole)
    (hc : cond1_0 i) (x : Vec F S4096x256 .f32) :
    out1_A_2 c i a2 h2 a3 h3 a4 h4 hc x = k1_pay2 k1_pay9 (k1_pay11 x) k1_pay4 := by
  unfold out1_A_2
  rw [View.read_writes_eq_canon _ _ _ (cover1_A_2 c i a2 h2 a3 h3 a4 h4 hc x)]
  unfold kernelRun1_A
  dsimp only
  sl_unfold_words
  rw [View.canon_cons_unit_zero (S := S8x128) hz, View.readCov_unit_zero (S := S8x128) _ hz]
  simp only [View.readAt_eq_ld, h2.read_unread, View.ld_unit_zero (S := S4096x256) hz]

end Pieces

-- the TensorCore's buffer contents when the region is entered, at the ideal values
variable (V : (c : Dev nD) → (b : Ref sig .tc) → Buf (Elt Ideal) ((c : Thread nD τ).loc b))

/-- The features array the region finds, as rows of 256 entries. -/
abbrev Zarr (c : Dev nD) : Fin 65536 → Fin 256 → EReal := fun n k => V c main_arg2 (ix2 n k)

/-- The block of 4096 rows of the features array that the input window holds at point t. -/
abbrev xblk (c : Dev nD) (t : Fin cfg1.N) : Vec Ideal S4096x256 .f32 := iblk1 V c 0 t

/-- The input window's block index at point t is (t, 0). -/
theorem idx_in : ∀ t : Fin cfg1.N, win1_0.index t 0 = t.val ∧ win1_0.index t 1 = 0 :=
  (by decide +kernel : ∀ t : Fin grid1.N, win1_0.index t 0 = t.val ∧ win1_0.index t 1 = 0)

/-- Entry (r, k) of the block at point t is entry (4096 * t + r, k) of the array: row r of block t of the 16 blocks. -/
theorem xblk_apply (c : Dev nD) (t : Fin cfg1.N) (r : Fin 4096) (k : Fin 256) :
    (xblk V c t (ix2 r k) : EReal)
      = Zarr V c (Cert.Xmi.blk 16 4096 65536 rfl ⟨t.val, lt_of_lt_of_eq t.isLt N_1⟩ r) k := by
  unfold xblk iblk1
  rw [View.read_apply]
  show V c main_arg2 _ = V c main_arg2 _
  congr 1
  funext a
  apply Fin.ext
  match a with
  | ⟨0, _⟩ =>
    show win1_0.index t 0 * 4096 + 1 * r.val = t.val * 4096 + r.val
    rw [(idx_in t).1]; omega
  | ⟨1, _⟩ =>
    show win1_0.index t 1 * 256 + 1 * k.val = k.val
    rw [(idx_in t).2]; omega

/-- term1 of block s of the 16 blocks of rows (0 past the last block). -/
def tot1 (c : Dev nD) (s : ℕ) : EReal :=
  if h : s < 16 then Cert.Xmi.term1 (fun r => Zarr V c (Cert.Xmi.blk 16 4096 65536 rfl ⟨s, h⟩ r)) else 0

/-- The pairwise term of block s, in the kernel's arrangement (0 past the last block). -/
def tot2 (c : Dev nD) (s : ℕ) : EReal :=
  if h : s < 16 then Cert.Xmi.term2K (fun r => Zarr V c (Cert.Xmi.blk 16 4096 65536 rfl ⟨s, h⟩ r)) else 0

/-- term1 taken over the rows of the block at point t is term1 of block t of the array's 16 blocks of rows. -/
theorem blockTot1 (c : Dev nD) (t : Fin cfg1.N) :
    Cert.Xmi.term1 (fun (r : Fin 4096) (k : Fin 256) => (xblk V c t (ix2 r k) : EReal)) = tot1 V c t.val := by
  unfold tot1
  rw [dif_pos (lt_of_lt_of_eq t.isLt N_1)]
  congr 1
  funext r k
  exact xblk_apply V c t r k

/-- The same for the pairwise term. -/
theorem blockTot2 (c : Dev nD) (t : Fin cfg1.N) :
    Cert.Xmi.term2K (fun (r : Fin 4096) (k : Fin 256) => (xblk V c t (ix2 r k) : EReal)) = tot2 V c t.val := by
  unfold tot2
  rw [dif_pos (lt_of_lt_of_eq t.isLt N_1)]
  congr 1
  funext r k
  exact xblk_apply V c t r k

/-- At a resetting point the first tile holds the block's term1 in cell (0, 0) and 0 in every other cell. -/
theorem stepA1 (c : Dev nD) (t : Fin cfg1.N) (h0 : t.val % 8 = 0) (a : Fin 8) (b : Fin 128) :
    ((outsAt1 V c t.val t.isLt).1 (ix2 a b) : EReal) = if a.val = 0 ∧ b.val = 0 then tot1 V c t.val else 0 := by
  rw [outsAt1_A V c t h0]
  dsimp only
  refine (congrFun (pieceA1 (F := Ideal) c (grid1.coords t) (ms1_0 t) (hs1_0 t) (ms1_1 t) (hs1_1 t) (ms1_2 t) (hs1_2 t)
    ((hcond1_0 t).mpr h0) (xblk V c t)) (ix2 a b)).trans ?_
  refine (Pay1.pay1_apply (k1_pay10 (xblk V c t)) (k1_pay3 (F := Ideal)) a b).trans ?_
  rw [Pay1.pay3_apply a b, Pay1.pay10_apply (xblk V c t) a b, blockTot1 V c t, zero_add]

/-- At any other point each cell of the first tile is what the point before left plus the block's term1 in cell (0, 0). -/
theorem stepB1 (c : Dev nD) (t : Fin cfg1.N) (h0 : ¬t.val % 8 = 0) (a : Fin 8) (b : Fin 128) :
    ((outsAt1 V c t.val t.isLt).1 (ix2 a b) : EReal)
      = ((outsAt1 V c (t.val - 1) (Nat.lt_of_le_of_lt (Nat.sub_le _ _) t.isLt)).1 (ix2 a b) : EReal)
        + (if a.val = 0 ∧ b.val = 0 then tot1 V c t.val else 0) := by
  rw [outsAt1_B V c t h0]
  dsimp only
  refine (congrFun (pieceB1 (F := Ideal) c (grid1.coords t) (ms1_0 t) (hs1_0 t) (ms1_1 t) (hs1_1 t) (ms1_2 t) (hs1_2 t)
    (fun h => h0 ((hcond1_0 t).mp h)) (xblk V c t)
    (outsAt1 V c (t.val - 1) (Nat.lt_of_le_of_lt (Nat.sub_le _ _) t.isLt)).1
    (outsAt1 V c (t.val - 1) (Nat.lt_of_le_of_lt (Nat.sub_le _ _) t.isLt)).2) (ix2 a b)).trans ?_
  refine (Pay1.pay1_apply (k1_pay10 (xblk V c t))
    (outsAt1 V c (t.val - 1) (Nat.lt_of_le_of_lt (Nat.sub_le _ _) t.isLt)).1 a b).trans ?_
  rw [Pay1.pay10_apply (xblk V c t) a b, blockTot1 V c t]

/-- At a resetting point the second tile holds the block's pairwise total where the position mask is set, which is
    cell (0, 0), and 0 in every other cell. -/
theorem stepA2 (c : Dev nD) (t : Fin cfg1.N) (h0 : t.val % 8 = 0) (a : Fin 8) (b : Fin 128) :
    ((outsAt1 V c t.val t.isLt).2 (ix2 a b) : EReal) = if a.val = 0 ∧ b.val = 0 then tot2 V c t.val else 0 := by
  rw [outsAt1_A V c t h0]
  dsimp only
  refine (congrFun (pieceA2 (F := Ideal) c (grid1.coords t) (ms1_0 t) (hs1_0 t) (ms1_1 t) (hs1_1 t) (ms1_2 t) (hs1_2 t)
    ((hcond1_0 t).mpr h0) (xblk V c t)) (ix2 a b)).trans ?_
  refine (Pay1.pay2_apply k1_pay9 (k1_pay11 (xblk V c t)) (k1_pay4 (F := Ideal)) a b).trans ?_
  rw [Pay1.pay4_apply a b, Pay1.pay11_apply (xblk V c t), blockTot2 V c t, zero_add]
  exact if_congr (Pay1.pay9_apply a b) rfl rfl

/-- At any other point each cell of the second tile is what the point before left plus the block's pairwise total in
    cell (0, 0). -/
theorem stepB2 (c : Dev nD) (t : Fin cfg1.N) (h0 : ¬t.val % 8 = 0) (a : Fin 8) (b : Fin 128) :
    ((outsAt1 V c t.val t.isLt).2 (ix2 a b) : EReal)
      = ((outsAt1 V c (t.val - 1) (Nat.lt_of_le_of_lt (Nat.sub_le _ _) t.isLt)).2 (ix2 a b) : EReal)
        + (if a.val = 0 ∧ b.val = 0 then tot2 V c t.val else 0) := by
  rw [outsAt1_B V c t h0]
  dsimp only
  refine (congrFun (pieceB2 (F := Ideal) c (grid1.coords t) (ms1_0 t) (hs1_0 t) (ms1_1 t) (hs1_1 t) (ms1_2 t) (hs1_2 t)
    (fun h => h0 ((hcond1_0 t).mp h)) (xblk V c t)
    (outsAt1 V c (t.val - 1) (Nat.lt_of_le_of_lt (Nat.sub_le _ _) t.isLt)).1
    (outsAt1 V c (t.val - 1) (Nat.lt_of_le_of_lt (Nat.sub_le _ _) t.isLt)).2) (ix2 a b)).trans ?_
  refine (Pay1.pay2_apply k1_pay9 (k1_pay11 (xblk V c t))
    (outsAt1 V c (t.val - 1) (Nat.lt_of_le_of_lt (Nat.sub_le _ _) t.isLt)).2 a b).trans ?_
  rw [Pay1.pay11_apply (xblk V c t), blockTot2 V c t]
  exact congrArg _ (if_congr (Pay1.pay9_apply a b) rfl rfl)

/-- A sequence of extended reals that restarts at every multiple of 8 with that point's term, and at every other point
    adds the point's term to its predecessor, is at point n the sum of the terms of n's group of 8 up to n. -/
theorem run_sum (N : ℕ) (f : (n : ℕ) → n < N → EReal) (g : ℕ → EReal)
    (hA : ∀ (n : ℕ) (h : n < N), n % 8 = 0 → f n h = g n)
    (hB : ∀ (n : ℕ) (h : n + 1 < N), ¬(n + 1) % 8 = 0 → f (n + 1) h = f n (Nat.lt_of_succ_lt h) + g (n + 1)) :
    ∀ (n : ℕ) (h : n < N), f n h = ∑ s ∈ Finset.range (n % 8 + 1), g (8 * (n / 8) + s)
  | 0, h => by rw [hA 0 h rfl]; simp
  | n + 1, h => by
    by_cases h0 : (n + 1) % 8 = 0
    · rw [hA _ h h0, h0, Finset.sum_range_one]
      congr 1; omega
    · rw [hB n h h0, run_sum N f g hA hB n (Nat.lt_of_succ_lt h)]
      have e1 : (n + 1) % 8 + 1 = (n % 8 + 1) + 1 := by omega
      have e2 : 8 * ((n + 1) / 8) = 8 * (n / 8) := by omega
      have e3 : 8 * (n / 8) + (n % 8 + 1) = n + 1 := by omega
      rw [e1, e2, Finset.sum_range_succ _ (n % 8 + 1), e3]

/-- After the last point of a half (t % 8 = 7) the first tile holds in cell (0, 0) the sum of term1 over the half's 8
    blocks, and 0 in every other cell. -/
theorem acc1_last (c : Dev nD) (t : Fin cfg1.N) (h7 : t.val % 8 = 7) (a : Fin 8) (b : Fin 128) :
    ((outsAt1 V c t.val t.isLt).1 (ix2 a b) : EReal)
      = if a.val = 0 ∧ b.val = 0 then ∑ s ∈ Finset.range 8, tot1 V c (8 * (t.val / 8) + s) else 0 := by
  have e := run_sum cfg1.N (fun n h => ((outsAt1 V c n h).1 (ix2 a b) : EReal))
    (fun s => if a.val = 0 ∧ b.val = 0 then tot1 V c s else 0)
    (fun n h h0 => stepA1 V c ⟨n, h⟩ h0 a b) (fun n h h0 => stepB1 V c ⟨n + 1, h⟩ h0 a b) t.val t.isLt
  have e1 : t.val % 8 + 1 = 8 := by omega
  rw [e1] at e
  refine e.trans ?_
  split
  · rfl
  · exact Finset.sum_const_zero

/-- The same for the second tile and the pairwise totals. -/
theorem acc2_last (c : Dev nD) (t : Fin cfg1.N) (h7 : t.val % 8 = 7) (a : Fin 8) (b : Fin 128) :
    ((outsAt1 V c t.val t.isLt).2 (ix2 a b) : EReal)
      = if a.val = 0 ∧ b.val = 0 then ∑ s ∈ Finset.range 8, tot2 V c (8 * (t.val / 8) + s) else 0 := by
  have e := run_sum cfg1.N (fun n h => ((outsAt1 V c n h).2 (ix2 a b) : EReal))
    (fun s => if a.val = 0 ∧ b.val = 0 then tot2 V c s else 0)
    (fun n h h0 => stepA2 V c ⟨n, h⟩ h0 a b) (fun n h h0 => stepB2 V c ⟨n + 1, h⟩ h0 a b) t.val t.isLt
  have e1 : t.val % 8 + 1 = 8 := by omega
  rw [e1] at e
  refine e.trans ?_
  split
  · rfl
  · exact Finset.sum_const_zero

/-- The host term reads cells (0, 0) and (8, 0) of the array: each slice has one entry, and so has its scalar cast. -/
theorem pick2_apply (A : FVec Ideal S16x128 .f32) (j : S_.Idx) :
    pick2 (F := Ideal) A j = (A (ix2 (0 : Fin 16) (0 : Fin 128)) : EReal) + A (ix2 (8 : Fin 16) (0 : Fin 128)) := by
  unfold pick2
  show (shapeCast S_ (extractStridedSlice S1x1 ![0, 0] A slices_S16x128_S1x1_0_0) shapeCasts_S1x1_S_ j : EReal)
      + shapeCast S_ (extractStridedSlice S1x1 ![8, 0] A slices_S16x128_S1x1_8_0) shapeCasts_S1x1_S_ j = _
  have hpos : ∀ k : S1x1.Idx, (S1x1.rowMajor k).val = (S_.rowMajor j).val := fun k => by
    have h0 : (k 0).val < 1 := (k 0).isLt
    have h1 : (k 1).val < 1 := (k 1).isLt
    rw [Shape.rowMajor_val_two, show (S_.rowMajor j).val = 0 from Shape.rowMajorPi_zero _ j]
    show (k 0).val * 1 + (k 1).val = 0
    omega
  congr 1
  · refine (shapeCast_apply _ shapeCasts_S1x1_S_ j (ix2 (0 : Fin 1) (0 : Fin 1)) (hpos _)).trans ?_
    exact extractStridedSlice_apply ![0, 0] A slices_S16x128_S1x1_0_0 (ix2 (0 : Fin 1) (0 : Fin 1)) (ix2 (0 : Fin 16) (0 : Fin 128))
      (fun a => by match a with | ⟨0, _⟩ => rfl | ⟨1, _⟩ => rfl)
  · refine (shapeCast_apply _ shapeCasts_S1x1_S_ j (ix2 (0 : Fin 1) (0 : Fin 1)) (hpos _)).trans ?_
    exact extractStridedSlice_apply ![8, 0] A slices_S16x128_S1x1_8_0 (ix2 (0 : Fin 1) (0 : Fin 1)) (ix2 (8 : Fin 16) (0 : Fin 128))
      (fun a => by match a with | ⟨0, _⟩ => rfl | ⟨1, _⟩ => rfl)

/-- The output windows' block index at point t is (t / 8, 0): the half. -/
theorem idx_out1 : ∀ t : Fin cfg1.N, win1_1.index t 0 = t.val / 8 ∧ win1_1.index t 1 = 0 :=
  (by decide +kernel : ∀ t : Fin grid1.N, win1_1.index t 0 = t.val / 8 ∧ win1_1.index t 1 = 0)
/-- The same for the second output window. -/
theorem idx_out2 : ∀ t : Fin cfg1.N, win1_2.index t 0 = t.val / 8 ∧ win1_2.index t 1 = 0 :=
  (by decide +kernel : ∀ t : Fin grid1.N, win1_2.index t 0 = t.val / 8 ∧ win1_2.index t 1 = 0)

/-- The first result array: rows 8 q .. 8 q + 7 are half q's tile, whose cell (0, 0) holds the sum of term1 over the
    half's 8 blocks of rows; every other cell is 0. -/
def G1 (c : Dev nD) : S16x128.Idx → EReal := fun j =>
  if (j 0).val % 8 = 0 ∧ (j 1).val = 0 then ∑ s ∈ Finset.range 8, tot1 V c (8 * ((j 0).val / 8) + s) else 0

/-- The second result array, the same with the pairwise totals. -/
def G2 (c : Dev nD) : S16x128.Idx → EReal := fun j =>
  if (j 0).val % 8 = 0 ∧ (j 1).val = 0 then ∑ s ∈ Finset.range 8, tot2 V c (8 * ((j 0).val / 8) + s) else 0

/-- What a half's last point writes back is that half's block of the array: entry (a, b) of the tile sits in row
    8 (t / 8) + a, column b. -/
theorem flushed1_eq (c : Dev nD) (t : Fin cfg1.N) (hf : (cfg1.win 1).flush t = true) :
    (dat1 V c).flushed 1 t = ((cfg1.win 1).blk t).view.read (Elt Ideal) (G1 V c) := by
  have h7 : t.val % 8 = 7 := (flush1_1 t).mp hf
  show (cfg1.win 1).cut (grid1.coords t) ((dat1 V c).after 1 t) = _
  rw [after1_1]
  funext y
  obtain ⟨a, b, rfl⟩ : ∃ (a : Fin 8) (b : Fin 128), y = ix2 a b := ⟨y 0, y 1, eq_ix2 y⟩
  rw [View.read_apply]
  have e0 : ((((cfg1.win 1).blk t).view.emb (ix2 a b)) 0).val = t.val / 8 * 8 + a.val := by
    show win1_1.index t 0 * 8 + 1 * a.val = _
    rw [(idx_out1 t).1]; omega
  have e1 : ((((cfg1.win 1).blk t).view.emb (ix2 a b)) 1).val = b.val := by
    show win1_1.index t 1 * 128 + 1 * b.val = _
    rw [(idx_out1 t).2]; omega
  show ((outsAt1 V c t.val t.isLt).1 (ix2 a b) : EReal) = G1 V c (((cfg1.win 1).blk t).view.emb (ix2 a b))
  rw [acc1_last V c t h7 a b]
  unfold G1
  rw [e0, e1]
  have ha : a.val < 8 := a.isLt
  have d0 : (t.val / 8 * 8 + a.val) % 8 = a.val := by omega
  have d1 : (t.val / 8 * 8 + a.val) / 8 = t.val / 8 := by omega
  rw [d0, d1]

/-- The same for the second result. -/
theorem flushed2_eq (c : Dev nD) (t : Fin cfg1.N) (hf : (cfg1.win 2).flush t = true) :
    (dat1 V c).flushed 2 t = ((cfg1.win 2).blk t).view.read (Elt Ideal) (G2 V c) := by
  have h7 : t.val % 8 = 7 := (flush1_2 t).mp hf
  show (cfg1.win 2).cut (grid1.coords t) ((dat1 V c).after 2 t) = _
  rw [after1_2]
  funext y
  obtain ⟨a, b, rfl⟩ : ∃ (a : Fin 8) (b : Fin 128), y = ix2 a b := ⟨y 0, y 1, eq_ix2 y⟩
  rw [View.read_apply]
  have e0 : ((((cfg1.win 2).blk t).view.emb (ix2 a b)) 0).val = t.val / 8 * 8 + a.val := by
    show win1_2.index t 0 * 8 + 1 * a.val = _
    rw [(idx_out2 t).1]; omega
  have e1 : ((((cfg1.win 2).blk t).view.emb (ix2 a b)) 1).val = b.val := by
    show win1_2.index t 1 * 128 + 1 * b.val = _
    rw [(idx_out2 t).2]; omega
  show ((outsAt1 V c t.val t.isLt).2 (ix2 a b) : EReal) = G2 V c (((cfg1.win 2).blk t).view.emb (ix2 a b))
  rw [acc2_last V c t h7 a b]
  unfold G2
  rw [e0, e1]
  have ha : a.val < 8 := a.isLt
  have d0 : (t.val / 8 * 8 + a.val) % 8 = a.val := by omega
  have d1 : (t.val / 8 * 8 + a.val) / 8 = t.val / 8 := by omega
  rw [d0, d1]

/-- Row j0 of a result array lies in the block that the last point of half j0 / 8 writes back, so after the region
    the first result array is G1. -/
theorem arr1_eq (c : Dev nD) : (dat1 V c).arrAt 1 cfg1.N = G1 V c :=
  (dat1 V c).arrAt_eq_of_cover 1 (G1 V c) (flushed1_eq V c) fun i => by
    have hi0 : (i 0 : Nat) < 16 := (i 0).isLt
    have hi1 : (i 1 : Nat) < 128 := (i 1).isLt
    have hlt : 8 * ((i 0 : Nat) / 8) + 7 < cfg1.N := by rw [show cfg1.N = 16 from N_1]; omega
    refine ⟨⟨8 * ((i 0 : Nat) / 8) + 7, hlt⟩, (flush1_1 _).mpr (by show (8 * ((i 0 : Nat) / 8) + 7) % 8 = 7; omega), ?_⟩
    show i ∈ ((View.whole main_v7_0).slice (win1_1.rect ⟨8 * ((i 0 : Nat) / 8) + 7, hlt⟩)).set
    rw [View.set_slice_whole, Rect.mem_set_unit]
    intro a
    match a with
    | ⟨0, _⟩ =>
      show win1_1.index ⟨8 * ((i 0 : Nat) / 8) + 7, hlt⟩ 0 * 8 ≤ (i 0 : Nat)
        ∧ (i 0 : Nat) < win1_1.index ⟨8 * ((i 0 : Nat) / 8) + 7, hlt⟩ 0 * 8 + 8
      rw [(idx_out1 ⟨8 * ((i 0 : Nat) / 8) + 7, hlt⟩).1]
      show (8 * ((i 0 : Nat) / 8) + 7) / 8 * 8 ≤ (i 0 : Nat) ∧ (i 0 : Nat) < (8 * ((i 0 : Nat) / 8) + 7) / 8 * 8 + 8
      omega
    | ⟨1, _⟩ =>
      show win1_1.index ⟨8 * ((i 0 : Nat) / 8) + 7, hlt⟩ 1 * 128 ≤ (i 1 : Nat)
        ∧ (i 1 : Nat) < win1_1.index ⟨8 * ((i 0 : Nat) / 8) + 7, hlt⟩ 1 * 128 + 128
      rw [(idx_out1 ⟨8 * ((i 0 : Nat) / 8) + 7, hlt⟩).2]
      omega

/-- The same cover for the second result array: after the region it is G2. -/
theorem arr2_eq (c : Dev nD) : (dat1 V c).arrAt 2 cfg1.N = G2 V c :=
  (dat1 V c).arrAt_eq_of_cover 2 (G2 V c) (flushed2_eq V c) fun i => by
    have hi0 : (i 0 : Nat) < 16 := (i 0).isLt
    have hi1 : (i 1 : Nat) < 128 := (i 1).isLt
    have hlt : 8 * ((i 0 : Nat) / 8) + 7 < cfg1.N := by rw [show cfg1.N = 16 from N_1]; omega
    refine ⟨⟨8 * ((i 0 : Nat) / 8) + 7, hlt⟩, (flush1_2 _).mpr (by show (8 * ((i 0 : Nat) / 8) + 7) % 8 = 7; omega), ?_⟩
    show i ∈ ((View.whole main_v7_1).slice (win1_2.rect ⟨8 * ((i 0 : Nat) / 8) + 7, hlt⟩)).set
    rw [View.set_slice_whole, Rect.mem_set_unit]
    intro a
    match a with
    | ⟨0, _⟩ =>
      show win1_2.index ⟨8 * ((i 0 : Nat) / 8) + 7, hlt⟩ 0 * 8 ≤ (i 0 : Nat)
        ∧ (i 0 : Nat) < win1_2.index ⟨8 * ((i 0 : Nat) / 8) + 7, hlt⟩ 0 * 8 + 8
      rw [(idx_out2 ⟨8 * ((i 0 : Nat) / 8) + 7, hlt⟩).1]
      show (8 * ((i 0 : Nat) / 8) + 7) / 8 * 8 ≤ (i 0 : Nat) ∧ (i 0 : Nat) < (8 * ((i 0 : Nat) / 8) + 7) / 8 * 8 + 8
      omega
    | ⟨1, _⟩ =>
      show win1_2.index ⟨8 * ((i 0 : Nat) / 8) + 7, hlt⟩ 1 * 128 ≤ (i 1 : Nat)
        ∧ (i 1 : Nat) < win1_2.index ⟨8 * ((i 0 : Nat) / 8) + 7, hlt⟩ 1 * 128 + 128
      rw [(idx_out2 ⟨8 * ((i 0 : Nat) / 8) + 7, hlt⟩).2]
      omega

/-- The two halves' sums of 8 block totals are the sum over all 16 blocks. -/
theorem halves_sum (g : ℕ → EReal) :
    ∑ s ∈ Finset.range 8, g (8 * (0 / 8) + s) + ∑ s ∈ Finset.range 8, g (8 * (8 / 8) + s) = ∑ b : Fin 16, g b.val := by
  rw [← Finset.sum_range (fun s => g s), show (16 : ℕ) = 8 + 8 from rfl, Finset.sum_range_add]
  simp only [Nat.reduceDiv, Nat.mul_zero, Nat.mul_one, Nat.zero_add]

/-- Cells (0, 0) and (8, 0) of the second call's first result add up to term1 of the features array the region finds. -/
theorem term1_cells (c : Dev nD) :
    pick2 (F := Ideal) ((dat1 V c).arrAt 1 cfg1.N)
      = fun _ => Cert.Xmi.term1 (fun (n : Fin 65536) (k : Fin 256) => V c main_arg2 (ix2 n k)) := by
  funext j
  rw [arr1_eq V c]
  refine (pick2_apply (G1 V c) j).trans ?_
  -- cell (0, 0) holds half 0's sum and cell (8, 0) half 1's; together they run over the 16 blocks of 4096 rows
  rw [Cert.Xmi.term1_blocks 16 4096 65536 rfl]
  unfold G1
  rw [if_pos ⟨rfl, rfl⟩, if_pos ⟨rfl, rfl⟩]
  refine (halves_sum (tot1 V c)).trans (Finset.sum_congr rfl fun b _ => ?_)
  unfold tot1
  rw [dif_pos b.isLt]

/-- Cells (0, 0) and (8, 0) of its second result add up to the pairwise term in the kernel's arrangement. -/
theorem term2_cells (c : Dev nD) :
    pick2 (F := Ideal) ((dat1 V c).arrAt 2 cfg1.N)
      = fun _ => Cert.Xmi.term2K (fun (n : Fin 65536) (k : Fin 256) => V c main_arg2 (ix2 n k)) := by
  funext j
  rw [arr2_eq V c]
  refine (pick2_apply (G2 V c) j).trans ?_
  rw [Cert.Xmi.term2K_blocks 16 4096 65536 rfl]
  unfold G2
  rw [if_pos ⟨rfl, rfl⟩, if_pos ⟨rfl, rfl⟩]
  refine (halves_sum (tot2 V c)).trans (Finset.sum_congr rfl fun b _ => ?_)
  unfold tot2
  rw [dif_pos b.isLt]

end Cert.KernelIdeal.Reg1

end
-- ==== Proof.KValue.lean ====
/-
  The kernel's run with its three results named by the specification: the generated run leaves each result buffer at
  the last host stretch's value; the host lines reduce those to `pick2` of each call's result array; each call's two
  cells add up to the specification's total over all 65536 rows.
-/
import proofs.«401249_j45887430590815_3_alg».proof.Proof.KRun
import proofs.«401249_j45887430590815_3_alg».proof.Proof.KHost
import proofs.«401249_j45887430590815_3_alg».proof.Proof.KReg0
import proofs.«401249_j45887430590815_3_alg».proof.Proof.KReg1
import proofs.«401249_j45887430590815_3_alg».proof.Proof.Spec
import proofs.«401249_j45887430590815_3_alg».proof.Proof.LibColumn
import Idealize.ShloMosaic.Lib.ValueIdx

set_option maxRecDepth 16384

noncomputable section

namespace Cert.KernelIdeal.KValue

open Cert.KernelIdeal Cert.KernelIdeal.Gen Cert.KernelIdeal.HostK
open Idealize.ShloMosaic Idealize.ShloMosaic.TcCoe Idealize.SL.Sem Idealize.ShloMosaic.ValueIdx

variable (m : (ℓ : Loc nD τ sig) → Buf (Elt Ideal) ℓ) (ρ : Dev nD → PrngReg)

/-- The launch arrays as the specification takes them: scores by (row, class), labels by row, features by (row, feature). -/
abbrev X (c : Dev nD) : Fin 65536 → Fin 1000 → EReal := fun n k => m ((c.tc : Thread nD τ).loc main_arg0) (ix2 n k)
abbrev T (c : Dev nD) : Fin 65536 → BitVec 32 := fun n => m ((c.tc : Thread nD τ).loc main_arg1) (ix1 n)
abbrev Z (c : Dev nD) : Fin 65536 → Fin 256 → EReal := fun n k => m ((c.tc : Thread nD τ).loc main_arg2) (ix2 n k)

/-- The first call's two cells: the masked-score total of the launch arrays. -/
theorem nll_sum (c : Dev nD) : pick2 (accN m ρ c) = fun _ => Cert.Xmi.nllTotal (X m c) (T m c) := by
  have hT : ∀ n : Fin 65536, V1 m ρ c main_v0 (ix2 n (0 : Fin 1)) = T m c n := fun n => by
    rw [V1_v0]
    exact Cert.LibColumn.shapeCast_a_a1_apply _ _ n 0
  have h := Cert.KernelIdeal.Reg0.nll_cells (V1 m ρ) c (T m c) hT
  rw [V1_arg0] at h
  exact h

/-- The second call's cells: term1 and the pairwise term of the launch features. -/
theorem term1_sum (c : Dev nD) : pick2 (acc1 m ρ c) = fun _ => Cert.Xmi.term1 (Z m c) := by
  have h := Cert.KernelIdeal.Reg1.term1_cells (V3 m ρ) c
  rw [V3_arg2] at h
  exact h
theorem term2_sum (c : Dev nD) : pick2 (acc2 m ρ c) = fun _ => Cert.Xmi.term2K (Z m c) := by
  have h := Cert.KernelIdeal.Reg1.term2_cells (V3 m ρ) c
  rw [V3_arg2] at h
  exact h

theorem v19_eq (c : Dev nD) : W5 m ρ c (Proc.devRef .tc main_v19) = fun _ => Cert.Xmi.lossNll (X m c) (T m c) := by
  rw [W5_v19, nll_sum]
  rfl

theorem v22_eq (c : Dev nD) : W5 m ρ c (Proc.devRef .tc main_v22) = fun _ => Cert.Xmi.lossKl (Z m c) := by
  rw [W5_v22, term1_sum, term2_sum]
  rfl

theorem v25_eq (c : Dev nD) :
    W5 m ρ c (Proc.devRef .tc main_v25) = fun _ => Cert.Xmi.loss (X m c) (T m c) (Z m c) := by
  rw [W5_v25, nll_sum, term1_sum, term2_sum]
  rfl

/-- Every weakly fair execution of the idealized kernel terminates with the three results at the specification's
    values of the launch arrays, and the arguments unchanged. -/
theorem run : θ_run defs (onTc (τ := τ) (main (F := Ideal))) ⟨m, fun _ => 0, ρ⟩ (fun r => ∀ c : Dev nD,
      r.2.mem ((c.tc : Thread nD τ).loc main_v25) = (fun _ => Cert.Xmi.loss (X m c) (T m c) (Z m c))
      ∧ r.2.mem ((c.tc : Thread nD τ).loc main_v19) = (fun _ => Cert.Xmi.lossNll (X m c) (T m c))
      ∧ r.2.mem ((c.tc : Thread nD τ).loc main_v22) = (fun _ => Cert.Xmi.lossKl (Z m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c).1.trans (v25_eq m ρ c), (h c).2.1.trans (v19_eq m ρ c), (h c).2.2.1.trans (v22_eq m ρ c), (h c).2.2.2⟩)
    (Cert.KernelIdeal.GenP.run m ρ)

end Cert.KernelIdeal.KValue

end
-- ==== Proof.RefNll.lean ====
/-
  The reference's negative-log-likelihood result. It wraps a negative label by adding 1000, gathers each row's score
  at that column, replaces it by a fill value where the wrapped label is outside [0, 999], sums the 65536 picked
  scores from zero, divides by 65536 and negates. When every label is the word of a column index below 1000, nothing is
  wrapped or filled: the picked score of row n is X n (T n) — the masked row sum — and the result is
  (-(masked-score total)) / 65536.
-/
import proofs.«401249_j45887430590815_3_alg».proof.Proof.RefRun
import proofs.«401249_j45887430590815_3_alg».proof.Proof.Spec
import proofs.«401249_j45887430590815_3_alg».proof.Proof.Math
import Idealize.ShloMosaic.Lib.Pipeline.Value
import Idealize.ShloMosaic.Lib.ValueIdx
import Idealize.ShloMosaic.Lib.ValueIdxRank1
import Idealize.ShloMosaic.Lib.ValueLayout
import Idealize.ShloMosaic.Lib.Affine
import Idealize.ShloMosaic.Lib.StableHlo.Predicate
import Idealize.ShloMosaic.PureOps.Reduce
import Idealize.ShloMosaic.PureOps.Ideal.Laws

set_option maxRecDepth 16384

noncomputable section

namespace Cert.ReferenceIdeal.RefNll

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

/-! ## The label column, the wrapped label and the start indices, read at an index -/

/-- The labels as a 65536 x 1 column. -/
def col (T : IVec S65536 32) : IVec S65536x1 32 := broadcastInDim S65536x1 ![0] bcast_S65536_S65536x1_0 T

/-- The column at (n, u) is label n. -/
theorem col_apply (T : IVec S65536 32) (n : Fin 65536) (u : Fin 1) : col T (ix2 n u) = T (ix1 n) :=
  broadcastInDim_apply _ bcast_S65536_S65536x1_0 T (ix2 n u) (ix1 n) (fun a => match a with
    | ⟨0, _⟩ => by show n.val = if (65536 : Nat) = 1 then 0 else n.val; rw [if_neg (by decide)])

/-- A scalar word broadcast to the column shape reads that word everywhere. -/
theorem splat_col_apply (b : BitVec 32) (i : S65536x1.Idx) :
    broadcastInDim S65536x1 ![] bcast_S_S65536x1 (constantI S_ 32 b) i = b :=
  broadcastInDim_apply _ bcast_S_S65536x1 (constantI S_ 32 b) i (fun a => a.elim0) (fun a => a.elim0)

/-- The label with 1000 added where it is negative as a signed number. -/
def wrap (T : IVec S65536 32) : IVec S65536x1 32 :=
  select (cmpi .slt (col T) (broadcastInDim S65536x1 ![] bcast_S_S65536x1 (constantI S_ 32 0#32)))
    (addi (col T) (broadcastInDim S65536x1 ![] bcast_S_S65536x1 (constantI S_ 32 1000#32))) (col T)

/-- The word of a column index below 1000 is that number when read signed. -/
theorem toInt_label (t : Fin 1000) : (BitVec.ofNat 32 t.val).toInt = (t.val : Int) :=
  StableHlo.Predicate.toInt_ofNat_small t.val (by have := t.isLt; omega)

/-- A label that is the word of a column index is not negative, so it is kept. -/
theorem wrap_apply (T : IVec S65536 32) (n : Fin 65536) (u : Fin 1) (t : Fin 1000)
    (ht : T (ix1 n) = BitVec.ofNat 32 t.val) : wrap T (ix2 n u) = BitVec.ofNat 32 t.val := by
  show Scalar.select (IntOp.cmpi .slt (col T (ix2 n u)) (broadcastInDim S65536x1 ![] bcast_S_S65536x1 (constantI S_ 32 0#32) (ix2 n u)))
    (IntOp.addi (col T (ix2 n u)) (broadcastInDim S65536x1 ![] bcast_S_S65536x1 (constantI S_ 32 1000#32) (ix2 n u))) (col T (ix2 n u)) = _
  rw [splat_col_apply, splat_col_apply, col_apply, ht]
  have h0 : IntOp.cmpi .slt (BitVec.ofNat 32 t.val) 0#32 = 0#1 := by
    refine eq_zero_of_ne_one fun h => ?_
    rw [IntOp.cmpi_slt, toInt_label] at h
    have : (0#32 : BitVec 32).toInt = 0 := by decide
    omega
  rw [h0, select_zero]

/-- The wrapped labels as a 65536 x 1 x 1 array: the start indices of the gather. -/
def idx3 (T : IVec S65536 32) : IVec S65536x1x1 32 := shapeCast S65536x1x1 (wrap T) shapeCasts_S65536x1_S65536x1x1

/-- The start index of row n is the label's word: (n, u, v) and (n, 0) have the same row-major position n. -/
theorem idx3_apply (T : IVec S65536 32) (n : Fin 65536) (u v : Fin 1) (t : Fin 1000)
    (ht : T (ix1 n) = BitVec.ofNat 32 t.val) : idx3 T (ix3 n u v) = BitVec.ofNat 32 t.val := by
  have h := shapeCast_apply (wrap T) shapeCasts_S65536x1_S65536x1x1 (ix3 n u v) (ix2 n (0 : Fin 1)) (by
    rw [Shape.rowMajor_val_two, Shape.rowMajor_val_three]
    have hu : u.val < 1 := u.isLt
    have hv : v.val < 1 := v.isLt
    show n.val * 1 + 0 = (n.val * 1 + u.val) * 1 + v.val
    omega)
  exact h.trans (wrap_apply T n 0 t ht)

/-! ## The in-range mask is all ones -/

/-- The zero word broadcast to 65536 x 1 x 1. -/
theorem splat3_apply (b : BitVec 32) (i : S65536x1x1.Idx) :
    broadcastInDim S65536x1x1 ![] bcast_S_S65536x1x1 (constantI S_ 32 b) i = b :=
  broadcastInDim_apply _ bcast_S_S65536x1x1 (constantI S_ 32 b) i (fun a => a.elim0) (fun a => a.elim0)

/-- The one-entry array holding 999, broadcast to 1 x 1 x 1 and then to 65536 x 1 x 1, reads 999 everywhere. -/
theorem top3_apply (i : S65536x1x1.Idx) :
    broadcastInDim S65536x1x1 ![0, 1, 2] bcast_S1x1x1_S65536x1x1_0_1_2
      (broadcastInDim S1x1x1 ![2] bcast_S1_S1x1x1_2 (constantI S1 32 999#32)) i = 999#32 := by
  rw [broadcastInDim_apply _ bcast_S1x1x1_S65536x1x1_0_1_2 _ i (fun a => match a with | ⟨0, _⟩ => ⟨0, Nat.one_pos⟩ | ⟨1, _⟩ => ⟨0, Nat.one_pos⟩ | ⟨2, _⟩ => ⟨0, Nat.one_pos⟩) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])]
  rfl

/-- 0 ≤ wrapped label ≤ 999, entry by entry. -/
def inRange (T : IVec S65536 32) : IVec S65536x1x1 1 :=
  andi (cmpi .sge (idx3 T) (broadcastInDim S65536x1x1 ![] bcast_S_S65536x1x1 (constantI S_ 32 0#32)))
    (cmpi .sle (idx3 T) (broadcastInDim S65536x1x1 ![0, 1, 2] bcast_S1x1x1_S65536x1x1_0_1_2
      (broadcastInDim S1x1x1 ![2] bcast_S1_S1x1x1_2 (constantI S1 32 999#32))))

/-- A label t < 1000 passes both comparisons. -/
theorem inRange_apply (T : IVec S65536 32)
    (hT : ∀ n : Fin 65536, ∃ t : Fin 1000, T (ix1 n) = BitVec.ofNat 32 t.val) (i : S65536x1x1.Idx) :
    inRange T i = 1#1 := by
  obtain ⟨n, u, v, rfl⟩ : ∃ (n : Fin 65536) (u v : Fin 1), i = ix3 n u v := ⟨i 0, i 1, i 2, eq_ix3 i⟩
  obtain ⟨t, ht⟩ := hT n
  show IntOp.andi
    (IntOp.cmpi .sge (idx3 T (ix3 n u v)) (broadcastInDim S65536x1x1 ![] bcast_S_S65536x1x1 (constantI S_ 32 0#32) (ix3 n u v)))
    (IntOp.cmpi .sle (idx3 T (ix3 n u v)) (broadcastInDim S65536x1x1 ![0, 1, 2] bcast_S1x1x1_S65536x1x1_0_1_2
      (broadcastInDim S1x1x1 ![2] bcast_S1_S1x1x1_2 (constantI S1 32 999#32)) (ix3 n u v))) = 1#1
  rw [idx3_apply T n u v t ht, splat3_apply, top3_apply, IntOp.andi_eq_one, IntOp.cmpi_sge, IntOp.cmpi_sle, toInt_label]
  have h0 : (0#32 : BitVec 32).toInt = 0 := by decide
  have h9 : (999#32 : BitVec 32).toInt = 999 := by decide
  have := t.isLt
  omega

/-- A fold of "and" from 1 over entries that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- The mask reduced by "and" over the unit axis, starting from 1. -/
def mask (T : IVec S65536 32) : IVec S65536x1 1 :=
  Host.reduce IntOp.andi (inRange T) (constantI S_ 1 1#1) reducesTo_S65536x1x1_S65536x1_d2 h_S_

theorem mask_apply (T : IVec S65536 32)
    (hT : ∀ n : Fin 65536, ∃ t : Fin 1000, T (ix1 n) = BitVec.ofNat 32 t.val) (j : S65536x1.Idx) :
    mask T j = 1#1 := by
  unfold mask
  rw [Host.reduce_eq_foldl]
  exact foldl_andi_one (inRange T) (inRange_apply T hT) _

/-! ## The gather, read at an index -/

/-- The gather's dimension numbers: rows are a batching axis, the column axis is collapsed and indexed. -/
abbrev gd : GatherDims S65536x1000 S65536x1x1 S65536x1 := gather_S65536x1000_S65536x1x1_S65536x1_n_1_0_0_1_2_11

/-- Whatever component of the start index is asked for (there is one), result (n, u) reads it at (n, u, 0). -/
theorem gd_siIdx (n : Fin 65536) (u : Fin 1) (c : Fin gd.startIndexMap.length) :
    gd.siIdx (ix2 n u) c = ix3 n u (0 : Fin 1) := by
  have hc : c.val < 1 := c.isLt
  obtain rfl : c = ⟨0, Nat.one_pos⟩ := Fin.ext (by show c.val = 0; omega)
  funext b
  refine Fin.ext ?_
  match b with
  | ⟨0, _⟩ => rfl
  | ⟨1, _⟩ => rfl
  | ⟨2, _⟩ => rfl

/-- The operand index of result (n, u): row n (the batching axis contributes the result's own row) and the column
    its start index names, read signed and clamped into [0, 999] (the collapsed, indexed axis). -/
theorem gd_operandIdx (idx : IVec S65536x1x1 32) (n : Fin 65536) (u : Fin 1) (k : Fin 1000)
    (hk : min (idx (ix3 n u (0 : Fin 1))).toInt.toNat 999 = k.val) :
    gd.operandIdx (ix2 n u) idx = ix2 n k := by
  funext a
  refine Fin.ext ?_
  have ha : a = (0 : Fin 2) ∨ a = (1 : Fin 2) := match a with
    | ⟨0, _⟩ => Or.inl rfl
    | ⟨1, _⟩ => Or.inr rfl
  show gd.start (ix2 n u) idx a + gd.batchCoord (ix2 n u) a + gd.offCoord (ix2 n u) a = _
  rcases ha with rfl | rfl
  · rw [gd.start_batching (ix2 n u) idx (0 : Fin 2) (by decide), gd.offCoord_eq_zero (ix2 n u) (0 : Fin 2) (by decide),
      Nat.zero_add, Nat.add_zero]
    rfl
  · rw [gd.batchCoord_eq_zero (ix2 n u) (1 : Fin 2) (by decide), gd.offCoord_eq_zero (ix2 n u) (1 : Fin 2) (by decide)]
    unfold GatherDims.start
    rw [dif_pos (show (1 : Fin 2) ∈ gd.startIndexMap from by decide), gd_siIdx]
    show min (idx (ix3 n u (0 : Fin 1))).toInt.toNat 999 = k.val
    exact hk

/-- The gather read at (n, u). -/
theorem gather_apply {α : Type} (X : S65536x1000.Idx → α) (idx : IVec S65536x1x1 32) (n : Fin 65536) (u : Fin 1)
    (k : Fin 1000) (hk : min (idx (ix3 n u (0 : Fin 1))).toInt.toNat 999 = k.val) :
    Host.gather gd X idx (ix2 n u) = X (ix2 n k) := by
  unfold Host.gather
  rw [gd_operandIdx idx n u k hk]

/-! ## The picked scores, their sum, and the result -/

/-- The gathered scores, with the fill value where the mask is 0. -/
def picked (X : FVec Ideal S65536x1000 .f32) (T : IVec S65536 32) : FVec Ideal S65536x1 .f32 :=
  select (mask T) (Host.gather gd X (idx3 T))
    (broadcastInDim S65536x1 ![] bcast_S_S65536x1 (constant S_ .f32 0x7FC00000#32))

/-- With every label in range the mask keeps the gathered value, and the clamp does not move the column:
    the picked score of row n is X n t for the label's column t. -/
theorem picked_apply (X : FVec Ideal S65536x1000 .f32) (T : IVec S65536 32)
    (hT : ∀ n : Fin 65536, ∃ t : Fin 1000, T (ix1 n) = BitVec.ofNat 32 t.val)
    (n : Fin 65536) (u : Fin 1) (t : Fin 1000) (ht : T (ix1 n) = BitVec.ofNat 32 t.val) :
    picked X T (ix2 n u) = X (ix2 n t) := by
  show Scalar.select (mask T (ix2 n u)) (Host.gather gd X (idx3 T) (ix2 n u))
    (broadcastInDim S65536x1 ![] bcast_S_S65536x1 (constant S_ .f32 0x7FC00000#32) (ix2 n u)) = _
  rw [mask_apply T hT, select_one]
  refine gather_apply X (idx3 T) n u t ?_
  rw [idx3_apply T n u 0 t ht, toInt_label, Int.toNat_natCast]
  have := t.isLt
  omega

/-- The picked scores as a length-65536 vector. -/
def flat (X : FVec Ideal S65536x1000 .f32) (T : IVec S65536 32) : FVec Ideal S65536 .f32 :=
  shapeCast S65536 (picked X T) shapeCasts_S65536x1_S65536

theorem flat_apply (X : FVec Ideal S65536x1000 .f32) (T : IVec S65536 32)
    (hT : ∀ n : Fin 65536, ∃ t : Fin 1000, T (ix1 n) = BitVec.ofNat 32 t.val)
    (n : Fin 65536) (t : Fin 1000) (ht : T (ix1 n) = BitVec.ofNat 32 t.val) :
    flat X T (ix1 n) = X (ix2 n t) := by
  have h := shapeCast_apply (picked X T) shapeCasts_S65536x1_S65536 (ix1 n) (ix2 n (0 : Fin 1)) (by
    rw [Shape.rowMajor_val_two, Shape.rowMajor_val_one]
    show n.val * 1 + 0 = n.val
    omega)
  exact h.trans (picked_apply X T hT n 0 t ht)

/-- The whole chain: sum the picked scores from the zero word, divide by the word of 65536, negate. -/
def res (X : FVec Ideal S65536x1000 .f32) (T : IVec S65536 32) : FVec Ideal S_ .f32 :=
  Host.negf (Host.divf
    (Host.reduceAdd (flat X T) (constant S_ .f32 0x00000000#32) reducesTo_S65536_S_d0 h_S_)
    (constant S_ .f32 0x47800000#32))

/-- The sum of the picked scores is the spec's masked-score total: row n contributes X n t, which is the sum over
    the 1000 columns of the row masked to the label's column. -/
theorem sum_flat (X : FVec Ideal S65536x1000 .f32) (T : IVec S65536 32)
    (hT : ∀ n : Fin 65536, ∃ t : Fin 1000, T (ix1 n) = BitVec.ofNat 32 t.val) :
    ∑ i : S65536.Idx, flat X T i
      = Cert.Xmi.nllTotal (fun (n : Fin 65536) (k : Fin 1000) => X (ix2 n k)) (fun n => T (ix1 n)) := by
  rw [← Equiv.sum_comp (idxEquiv1 (n := 65536)).symm (flat X T)]
  unfold Cert.Xmi.nllTotal
  refine Finset.sum_congr rfl fun n _ => ?_
  obtain ⟨t, ht⟩ := hT n
  show flat X T (ix1 n) = _
  rw [flat_apply X T hT n t ht,
    Cert.Xmi.hot_sum_eq (fun (n : Fin 65536) (k : Fin 1000) => X (ix2 n k)) (fun n => T (ix1 n)) n t ht]

theorem res_apply (X : FVec Ideal S65536x1000 .f32) (T : IVec S65536 32)
    (hT : ∀ n : Fin 65536, ∃ t : Fin 1000, T (ix1 n) = BitVec.ofNat 32 t.val) (j : S_.Idx) :
    res X T j = Cert.Xmi.lossNll (fun (n : Fin 65536) (k : Fin 1000) => X (ix2 n k)) (fun n => T (ix1 n)) := by
  show FloatOps.hostNegf (FloatOps.hostDivf
    (Host.reduceAdd (flat X T) (constant S_ .f32 0x00000000#32) reducesTo_S65536_S_d0 h_S_ j)
    (Ideal.ofBits .f32 0x47800000#32)) = _
  have hsum : Host.reduceAdd (flat X T) (constant S_ .f32 0x00000000#32) reducesTo_S65536_S_d0 h_S_ j
      = Cert.Xmi.nllTotal (fun (n : Fin 65536) (k : Fin 1000) => X (ix2 n k)) (fun n => T (ix1 n)) := by
    simp only [Host.reduceAdd, Ideal.hostReduceAdd_def]
    rw [Ideal.hostReduceAdd_total reducesTo_S65536_S_d0 (fun b => b.elim0) (flat X T) _ j]
    show Ideal.ofBits .f32 0x00000000#32 + _ = _
    rw [Ideal.ofBits_zero_f32, zero_add, sum_flat X T hT]
  rw [hsum, Ideal.hostNegf_def, Ideal.negf_def, Ideal.hostDivf_def]
  unfold Cert.Xmi.lossNll
  exact Cert.Xmi.neg_div_c65536 _

variable (m : (ℓ : Loc nD τ sig) → Buf (Elt Ideal) ℓ) (c : Dev nD)

/-- With every label in range, the reference's second result is the spec's lossNll of the launch arrays. -/
theorem ref_nll
    (hT : ∀ n : Fin 65536, ∃ t : Fin 1000, m ((c.tc : Thread nD τ).loc main_arg1) (ix1 n) = BitVec.ofNat 32 t.val) :
    StableHlo.after ops (launchContents m c) (Proc.devRef .tc main_v5)
      = fun _ => Cert.Xmi.lossNll (fun (n : Fin 65536) (k : Fin 1000) => m ((c.tc : Thread nD τ).loc main_arg0) (ix2 n k))
          (fun n => m ((c.tc : Thread nD τ).loc main_arg1) (ix1 n)) := by
  after_results_simp
  simp only [TRef.ofBuf, TRef.toBuf, cast_eq]
  -- the composed operations are the chain `res` of the two launch arrays
  show res (m ((c.tc : Thread nD τ).loc main_arg0)) (m ((c.tc : Thread nD τ).loc main_arg1)) = _
  funext j
  exact res_apply _ _ hT j

end Cert.ReferenceIdeal.RefNll

end
-- ==== Proof.RefKl.lean ====
/-
  The reference's pairwise-KL result: the row-wise log-softmax lf of the features (row maximum, shifted entries, log of
  the sum of exponentials), p = exp lf, 256 times the total of p * lf minus the total over rows of
  (row sum of p) * (row sum of lf), divided by 65536. With every feature a real number the row sum of lf is
  (row sum of shifted) - 256 * L, the arrangement the spec's lossKl is written in.
-/
import proofs.«401249_j45887430590815_3_alg».proof.Proof.RefRun
import proofs.«401249_j45887430590815_3_alg».proof.Proof.Spec
import proofs.«401249_j45887430590815_3_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefKl

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The typed references' operations over the plain references

A typed reference moves contents along the equation "the buffer's type is T"; at a literal reference that
equation holds by computation, so an operation over typed references is the operation over the plain ones. -/

section Plain
variable {Val : EltTy → Type} {Ta Tb Ty : BufTy}

theorem tnull_eq (y : Ref sig .tc) (hy : y.ty = Ty) (hy2 : y.space ≠ .host) (hy3 : y.isScoped = false)
    (v : Ty.Contents Val) (v' : y.ty.Contents Val) (hv : HEq v v') :
    TRef.nullary (τ := τ) (TRef.of y hy hy2 hy3) v = nullary y v' (TRef.of y hy hy2 hy3).dev := by
  subst hy; cases hv; rfl

theorem tun_eq (a y : Ref sig .tc) (ha : a.ty = Ta) (ha2 : a.space ≠ .host) (ha3 : a.isScoped = false)
    (hy : y.ty = Ty) (hy2 : y.space ≠ .host) (hy3 : y.isScoped = false)
    (f : Ta.Contents Val → Ty.Contents Val) (g : a.ty.Contents Val → y.ty.Contents Val) (hfg : HEq f g) :
    TRef.unary (τ := τ) (TRef.of a ha ha2 ha3) (TRef.of y hy hy2 hy3) f
      = unary a y g (TRef.of a ha ha2 ha3).dev (TRef.of y hy hy2 hy3).dev := by
  subst ha hy; cases hfg; rfl

theorem tbin_eq (a b y : Ref sig .tc) (ha : a.ty = Ta) (ha2 : a.space ≠ .host) (ha3 : a.isScoped = false)
    (hb : b.ty = Tb) (hb2 : b.space ≠ .host) (hb3 : b.isScoped = false)
    (hy : y.ty = Ty) (hy2 : y.space ≠ .host) (hy3 : y.isScoped = false)
    (f : Ta.Contents Val → Tb.Contents Val → Ty.Contents Val)
    (g : a.ty.Contents Val → b.ty.Contents Val → y.ty.Contents Val) (hfg : HEq f g) :
    TRef.binary (τ := τ) (TRef.of a ha ha2 ha3) (TRef.of b hb hb2 hb3) (TRef.of y hy hy2 hy3) f
      = binary a b y g (TRef.of a ha ha2 ha3).dev (TRef.of b hb hb2 hb3).dev (TRef.of y hy hy2 hy3).dev := by
  subst ha hb hy; cases hfg; rfl

end Plain
section Parts
variable {F : FTy → Type} [FloatOps F]

/-- The first 29 operations: the picked-score result. -/
abbrev opsA : List (HloOp τ sig (Elt F)) :=
  [ unary main_arg1 main_v0 (broadcastInDim S65536x1 ![0] bcast_S65536_S65536x1_0 : (⟨S65536, .i32⟩ : BufTy).Contents (Elt F) → (⟨S65536x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S65536x1, .i32⟩) main_call0_v0) (broadcastInDim S65536x1 ![] bcast_S_S65536x1),
    TRef.binary (TRef.of (T := ⟨S65536x1, .i32⟩) main_v0) (TRef.of (T := ⟨S65536x1, .i32⟩) main_call0_v0) (TRef.of (T := ⟨S65536x1, .i1⟩) main_call0_v1) (cmpi .slt),
    TRef.nullary (TRef.of (T := ⟨S_, .i32⟩) main_call0_c_0) (constantI S_ 32 1000#32),
    TRef.unary (TRef.of (T := ⟨S_, .i32⟩) main_call0_c_0) (TRef.of (T := ⟨S65536x1, .i32⟩) main_call0_v2) (broadcastInDim S65536x1 ![] bcast_S_S65536x1),
    TRef.binary (TRef.of (T := ⟨S65536x1, .i32⟩) main_v0) (TRef.of (T := ⟨S65536x1, .i32⟩) main_call0_v2) (TRef.of (T := ⟨S65536x1, .i32⟩) main_call0_v3) addi,
    TRef.ternary (TRef.of (T := ⟨S65536x1, .i1⟩) main_call0_v1) (TRef.of (T := ⟨S65536x1, .i32⟩) main_call0_v3) (TRef.of (T := ⟨S65536x1, .i32⟩) main_v0) (TRef.of (T := ⟨S65536x1, .i32⟩) main_call0_v4) select,
    TRef.reshape (TRef.of (T := ⟨S65536x1, .i32⟩) main_call0_v4) (TRef.of (T := ⟨S65536x1x1, .i32⟩) main_call0_v5) rfl shapeCasts_S65536x1_S65536x1x1,
    TRef.nullary (TRef.of (T := ⟨S1, .i32⟩) main_call0_c_1) (constantI S1 32 999#32),
    TRef.nullary (TRef.of (T := ⟨S_, .i32⟩) main_call0_c_2) (constantI S_ 32 0#32),
    TRef.unary (TRef.of (T := ⟨S_, .i32⟩) main_call0_c_2) (TRef.of (T := ⟨S65536x1x1, .i32⟩) main_call0_v6) (broadcastInDim S65536x1x1 ![] bcast_S_S65536x1x1),
    TRef.binary (TRef.of (T := ⟨S65536x1x1, .i32⟩) main_call0_v5) (TRef.of (T := ⟨S65536x1x1, .i32⟩) main_call0_v6) (TRef.of (T := ⟨S65536x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S65536x1x1, .i32⟩) main_call0_v9) (broadcastInDim S65536x1x1 ![0, 1, 2] bcast_S1x1x1_S65536x1x1_0_1_2),
    TRef.binary (TRef.of (T := ⟨S65536x1x1, .i32⟩) main_call0_v5) (TRef.of (T := ⟨S65536x1x1, .i32⟩) main_call0_v9) (TRef.of (T := ⟨S65536x1x1, .i1⟩) main_call0_v10) (cmpi .sle),
    TRef.binary (TRef.of (T := ⟨S65536x1x1, .i1⟩) main_call0_v7) (TRef.of (T := ⟨S65536x1x1, .i1⟩) main_call0_v10) (TRef.of (T := ⟨S65536x1x1, .i1⟩) main_call0_v11) andi,
    TRef.nullary (TRef.of (T := ⟨S_, .i1⟩) main_call0_c_3) (constantI S_ 1 1#1),
    TRef.binary (TRef.of (T := ⟨S65536x1x1, .i1⟩) main_call0_v11) (TRef.of (T := ⟨S_, .i1⟩) main_call0_c_3) (TRef.of (T := ⟨S65536x1, .i1⟩) main_call0_v12) (fun x v => Host.reduce IntOp.andi x v reducesTo_S65536x1x1_S65536x1_d2 h_S_),
    TRef.binary (TRef.of (T := ⟨S65536x1000, .f32⟩) main_arg0) (TRef.of (T := ⟨S65536x1x1, .i32⟩) main_call0_v5) (TRef.of (T := ⟨S65536x1, .f32⟩) main_call0_v13) (fun x i => Host.gather gather_S65536x1000_S65536x1x1_S65536x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S65536x1, .f32⟩) main_call0_v14) (broadcastInDim S65536x1 ![] bcast_S_S65536x1),
    TRef.ternary (TRef.of (T := ⟨S65536x1, .i1⟩) main_call0_v12) (TRef.of (T := ⟨S65536x1, .f32⟩) main_call0_v13) (TRef.of (T := ⟨S65536x1, .f32⟩) main_call0_v14) (TRef.of (T := ⟨S65536x1, .f32⟩) main_v1) select,
    reshape main_v1 main_v2 rfl shapeCasts_S65536x1_S65536,
    nullary main_cst (constant S_ .f32 0x00000000#32),
    binary main_v2 main_cst main_v3 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_0 (constant S_ .f32 0x47800000#32),
    binary main_v3 main_cst_0 main_v4 (Host.divf : (⟨S_, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)) ]

/-- The 15 operations of the log-softmax call, as the program prints them (over typed references). -/
abbrev opsB : List (HloOp τ sig (Elt F)) :=
  [ TRef.nullary (TRef.of (T := ⟨S_, .f32⟩) main_call1_cst) (constant S_ .f32 0xFF800000#32),
    TRef.binary (TRef.of (T := ⟨S65536x256, .f32⟩) main_arg2) (TRef.of (T := ⟨S_, .f32⟩) main_call1_cst) (TRef.of (T := ⟨S65536, .f32⟩) main_call1_v0) (fun x v => Host.reduce FloatOps.maximumf x v reducesTo_S65536x256_S65536_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S65536, .f32⟩) main_call1_v1) (broadcastInDim S65536 ![] bcast_S_S65536),
    TRef.binary (TRef.of (T := ⟨S65536, .f32⟩) main_call1_v1) (TRef.of (T := ⟨S65536, .f32⟩) main_call1_v0) (TRef.of (T := ⟨S65536, .f32⟩) main_call1_v2) maximumf,
    TRef.unary (TRef.of (T := ⟨S65536, .f32⟩) main_call1_v2) (TRef.of (T := ⟨S65536x1, .f32⟩) main_call1_v3) (broadcastInDim S65536x1 ![0] bcast_S65536_S65536x1_0),
    TRef.unary (TRef.of (T := ⟨S65536x1, .f32⟩) main_call1_v3) (TRef.of (T := ⟨S65536x256, .f32⟩) main_call1_v4) (broadcastInDim S65536x256 ![0, 1] bcast_S65536x1_S65536x256_0_1),
    TRef.binary (TRef.of (T := ⟨S65536x256, .f32⟩) main_arg2) (TRef.of (T := ⟨S65536x256, .f32⟩) main_call1_v4) (TRef.of (T := ⟨S65536x256, .f32⟩) main_call1_v5) subf,
    TRef.unary (TRef.of (T := ⟨S65536x256, .f32⟩) main_call1_v5) (TRef.of (T := ⟨S65536x256, .f32⟩) main_call1_v6) Host.exp,
    TRef.nullary (TRef.of (T := ⟨S_, .f32⟩) main_call1_cst_1) (constant S_ .f32 0x00000000#32),
    TRef.binary (TRef.of (T := ⟨S65536x256, .f32⟩) main_call1_v6) (TRef.of (T := ⟨S_, .f32⟩) main_call1_cst_1) (TRef.of (T := ⟨S65536, .f32⟩) main_call1_v7) (fun x v => Host.reduceAdd x v reducesTo_S65536x256_S65536_d1 h_S_),
    TRef.unary (TRef.of (T := ⟨S65536, .f32⟩) main_call1_v7) (TRef.of (T := ⟨S65536x1, .f32⟩) main_call1_v8) (broadcastInDim S65536x1 ![0] bcast_S65536_S65536x1_0),
    TRef.unary (TRef.of (T := ⟨S65536x1, .f32⟩) main_call1_v8) (TRef.of (T := ⟨S65536x1, .f32⟩) main_call1_v9) Host.log,
    TRef.unary (TRef.of (T := ⟨S65536x1, .f32⟩) main_call1_v9) (TRef.of (T := ⟨S65536x256, .f32⟩) main_call1_v10) (broadcastInDim S65536x256 ![0, 1] bcast_S65536x1_S65536x256_0_1),
    TRef.binary (TRef.of (T := ⟨S65536x256, .f32⟩) main_call1_v5) (TRef.of (T := ⟨S65536x256, .f32⟩) main_call1_v10) (TRef.of (T := ⟨S65536x256, .f32⟩) main_v6) subf ]

/-- The same 15 operations over the plain references. -/
abbrev opsB' : List (HloOp τ sig (Elt F)) :=
  [ nullary main_call1_cst (constant S_ .f32 0xFF800000#32 : (⟨S_, .f32⟩ : BufTy).Contents (Elt F)),
    binary main_arg2 main_call1_cst main_call1_v0 ((fun x v => Host.reduce FloatOps.maximumf x v reducesTo_S65536x256_S65536_d1 h_S_) : (⟨S65536x256, .f32⟩ : BufTy).Contents (Elt F) → (⟨S_, .f32⟩ : BufTy).Contents (Elt F) → (⟨S65536, .f32⟩ : BufTy).Contents (Elt F)),
    nullary main_call1_cst_0 (constant S_ .f32 0xFF800000#32 : (⟨S_, .f32⟩ : BufTy).Contents (Elt F)),
    unary main_call1_cst_0 main_call1_v1 ((broadcastInDim S65536 ![] bcast_S_S65536) : (⟨S_, .f32⟩ : BufTy).Contents (Elt F) → (⟨S65536, .f32⟩ : BufTy).Contents (Elt F)),
    binary main_call1_v1 main_call1_v0 main_call1_v2 (maximumf : (⟨S65536, .f32⟩ : BufTy).Contents (Elt F) → (⟨S65536, .f32⟩ : BufTy).Contents (Elt F) → (⟨S65536, .f32⟩ : BufTy).Contents (Elt F)),
    unary main_call1_v2 main_call1_v3 ((broadcastInDim S65536x1 ![0] bcast_S65536_S65536x1_0) : (⟨S65536, .f32⟩ : BufTy).Contents (Elt F) → (⟨S65536x1, .f32⟩ : BufTy).Contents (Elt F)),
    unary main_call1_v3 main_call1_v4 ((broadcastInDim S65536x256 ![0, 1] bcast_S65536x1_S65536x256_0_1) : (⟨S65536x1, .f32⟩ : BufTy).Contents (Elt F) → (⟨S65536x256, .f32⟩ : BufTy).Contents (Elt F)),
    binary main_arg2 main_call1_v4 main_call1_v5 (subf : (⟨S65536x256, .f32⟩ : BufTy).Contents (Elt F) → (⟨S65536x256, .f32⟩ : BufTy).Contents (Elt F) → (⟨S65536x256, .f32⟩ : BufTy).Contents (Elt F)),
    unary main_call1_v5 main_call1_v6 (Host.exp : (⟨S65536x256, .f32⟩ : BufTy).Contents (Elt F) → (⟨S65536x256, .f32⟩ : BufTy).Contents (Elt F)),
    nullary main_call1_cst_1 (constant S_ .f32 0x00000000#32 : (⟨S_, .f32⟩ : BufTy).Contents (Elt F)),
    binary main_call1_v6 main_call1_cst_1 main_call1_v7 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_call1_v7 main_call1_v8 ((broadcastInDim S65536x1 ![0] bcast_S65536_S65536x1_0) : (⟨S65536, .f32⟩ : BufTy).Contents (Elt F) → (⟨S65536x1, .f32⟩ : BufTy).Contents (Elt F)),
    unary main_call1_v8 main_call1_v9 (Host.log : (⟨S65536x1, .f32⟩ : BufTy).Contents (Elt F) → (⟨S65536x1, .f32⟩ : BufTy).Contents (Elt F)),
    unary main_call1_v9 main_call1_v10 ((broadcastInDim S65536x256 ![0, 1] bcast_S65536x1_S65536x256_0_1) : (⟨S65536x1, .f32⟩ : BufTy).Contents (Elt F) → (⟨S65536x256, .f32⟩ : BufTy).Contents (Elt F)),
    binary main_call1_v5 main_call1_v10 main_v6 (subf : (⟨S65536x256, .f32⟩ : BufTy).Contents (Elt F) → (⟨S65536x256, .f32⟩ : BufTy).Contents (Elt F) → (⟨S65536x256, .f32⟩ : BufTy).Contents (Elt F)) ]

/-- The last 21 operations: the pairwise term and the total. -/
abbrev opsC : List (HloOp τ sig (Elt F)) :=
  [ unary main_v6 main_v7 (Host.exp : (⟨S65536x256, .f32⟩ : BufTy).Contents (Elt F) → (⟨S65536x256, .f32⟩ : BufTy).Contents (Elt F)),
    binary main_v7 main_v6 main_v8 (mulf : (⟨S65536x256, .f32⟩ : BufTy).Contents (Elt F) → (⟨S65536x256, .f32⟩ : BufTy).Contents (Elt F) → (⟨S65536x256, .f32⟩ : BufTy).Contents (Elt F)),
    nullary main_cst_1 (constant S_ .f32 0x00000000#32),
    binary main_v8 main_cst_1 main_v9 ((fun x v => Host.reduceAdd x v reducesTo_S65536x256_S_d0_1 h_S_) : (⟨S65536x256, .f32⟩ : BufTy).Contents (Elt F) → (⟨S_, .f32⟩ : BufTy).Contents (Elt F) → (⟨S_, .f32⟩ : BufTy).Contents (Elt F)),
    nullary main_cst_2 (constant S_ .f32 0x43800000#32),
    binary main_cst_2 main_v9 main_v10 (mulf : (⟨S_, .f32⟩ : BufTy).Contents (Elt F) → (⟨S_, .f32⟩ : BufTy).Contents (Elt F) → (⟨S_, .f32⟩ : BufTy).Contents (Elt F)),
    nullary main_cst_3 (constant S_ .f32 0x00000000#32),
    binary main_v7 main_cst_3 main_v11 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    nullary main_cst_4 (constant S_ .f32 0x00000000#32),
    binary main_v6 main_cst_4 main_v12 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    binary main_v11 main_v12 main_v13 (mulf : (⟨S65536, .f32⟩ : BufTy).Contents (Elt F) → (⟨S65536, .f32⟩ : BufTy).Contents (Elt F) → (⟨S65536, .f32⟩ : BufTy).Contents (Elt F)),
    nullary main_cst_5 (constant S_ .f32 0x00000000#32),
    binary main_v13 main_cst_5 main_v14 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    binary main_v10 main_v14 main_v15 (subf : (⟨S_, .f32⟩ : BufTy).Contents (Elt F) → (⟨S_, .f32⟩ : BufTy).Contents (Elt F) → (⟨S_, .f32⟩ : BufTy).Contents (Elt F)),
    nullary main_cst_6 (constant S_ .f32 0x47800000#32),
    binary main_v15 main_cst_6 main_v16 (Host.divf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_cst_7 main_v5 main_v17 (mulf : (⟨S_, .f32⟩ : BufTy).Contents (Elt F) → (⟨S_, .f32⟩ : BufTy).Contents (Elt F) → (⟨S_, .f32⟩ : BufTy).Contents (Elt F)),
    nullary main_cst_8 (constant S_ .f32 0x3E4CCCCD#32),
    binary main_cst_8 main_v16 main_v18 (mulf : (⟨S_, .f32⟩ : BufTy).Contents (Elt F) → (⟨S_, .f32⟩ : BufTy).Contents (Elt F) → (⟨S_, .f32⟩ : BufTy).Contents (Elt F)),
    binary main_v17 main_v18 main_v19 (addf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = opsA ++ (opsB ++ opsC) := rfl

/-- Equal heads and equal tails make equal lists. -/
theorem cons_congr {α : Type} {a b : α} {l l' : List α} (h₁ : a = b) (h₂ : l = l') : a :: l = b :: l' := by rw [h₁, h₂]

theorem opsB_eq : (opsB : List (HloOp τ sig (Elt F))) = opsB' :=
  cons_congr (tnull_eq main_call1_cst _ _ _ _ _ HEq.rfl) <|
    cons_congr (tbin_eq main_arg2 main_call1_cst main_call1_v0 _ _ _ _ _ _ _ _ _ _ _ HEq.rfl) <|
    cons_congr (tnull_eq main_call1_cst_0 _ _ _ _ _ HEq.rfl) <|
    cons_congr (tun_eq main_call1_cst_0 main_call1_v1 _ _ _ _ _ _ _ _ HEq.rfl) <|
    cons_congr (tbin_eq main_call1_v1 main_call1_v0 main_call1_v2 _ _ _ _ _ _ _ _ _ _ _ HEq.rfl) <|
    cons_congr (tun_eq main_call1_v2 main_call1_v3 _ _ _ _ _ _ _ _ HEq.rfl) <|
    cons_congr (tun_eq main_call1_v3 main_call1_v4 _ _ _ _ _ _ _ _ HEq.rfl) <|
    cons_congr (tbin_eq main_arg2 main_call1_v4 main_call1_v5 _ _ _ _ _ _ _ _ _ _ _ HEq.rfl) <|
    cons_congr (tun_eq main_call1_v5 main_call1_v6 _ _ _ _ _ _ _ _ HEq.rfl) <|
    cons_congr (tnull_eq main_call1_cst_1 _ _ _ _ _ HEq.rfl) <|
    cons_congr (tbin_eq main_call1_v6 main_call1_cst_1 main_call1_v7 _ _ _ _ _ _ _ _ _ _ _ HEq.rfl) <|
    cons_congr (tun_eq main_call1_v7 main_call1_v8 _ _ _ _ _ _ _ _ HEq.rfl) <|
    cons_congr (tun_eq main_call1_v8 main_call1_v9 _ _ _ _ _ _ _ _ HEq.rfl) <|
    cons_congr (tun_eq main_call1_v9 main_call1_v10 _ _ _ _ _ _ _ _ HEq.rfl) <|
    cons_congr (tbin_eq main_call1_v5 main_call1_v10 main_v6 _ _ _ _ _ _ _ _ _ _ _ HEq.rfl) <|
    rfl
end Parts

/-! ## Indices -/

/-- Row n of the reduced shape with column k put back is (n, k). -/
theorem lift_row (h : S65536x256.Reduces [1] S65536) (n : Fin 65536) (k : Fin (S65536x256.size 1)) :
    h.lift (ix1 n) k = ix2 n ⟨k.val, k.isLt⟩ := by
  funext a; apply Fin.ext
  match a with
  | ⟨0, _⟩ => rfl
  | ⟨1, _⟩ => rfl

/-- A length-65536 index set is its one coordinate's range. -/
def idxEquiv1 : S65536.Idx ≃ Fin 65536 where
  toFun i := i 0
  invFun a := ix1 a
  left_inv i := (eq_ix1 i).symm
  right_inv _ := rfl

theorem sum_idx1 (f : S65536.Idx → EReal) : ∑ i, f i = ∑ n : Fin 65536, f (ix1 n) := by
  rw [← Equiv.sum_comp idxEquiv1.symm f]
  rfl

/-! ## The layout operations and the sums, read at an index -/

/-- A vector viewed as a column reads, at (n, u), the vector at n. -/
theorem bc1_apply (v : FVec Ideal S65536 .f32) (n : Fin 65536) (u : Fin 1) :
    broadcastInDim S65536x1 ![0] bcast_S65536_S65536x1_0 v (ix2 n u) = v (ix1 n) :=
  broadcastInDim_apply _ bcast_S65536_S65536x1_0 v (ix2 n u) (ix1 n) (fun a => match a with
    | ⟨0, _⟩ => by show n.val = if (65536 : Nat) = 1 then 0 else n.val; rw [if_neg (by decide)])

/-- A column repeated across the 256 columns reads, at (n, k), the column's entry in row n. -/
theorem bc2_apply (w : FVec Ideal S65536x1 .f32) (n : Fin 65536) (k : Fin 256) :
    broadcastInDim S65536x256 ![0, 1] bcast_S65536x1_S65536x256_0_1 w (ix2 n k) = w (ix2 n (0 : Fin 1)) :=
  broadcastInDim_apply _ bcast_S65536x1_S65536x256_0_1 w (ix2 n k) (ix2 n (0 : Fin 1)) (fun a => match a with
    | ⟨0, _⟩ => by show n.val = if (65536 : Nat) = 1 then 0 else n.val; rw [if_neg (by decide)]
    | ⟨1, _⟩ => by show 0 = if (1 : Nat) = 1 then 0 else k.val; rw [if_pos rfl])

/-- The host's sum over the columns from the zero word, at row n: the sum of the row's 256 entries. -/
theorem rowSum_apply (x : FVec Ideal S65536x256 .f32) (n : Fin 65536) :
    Host.reduceAdd x (constant S_ .f32 0x00000000#32) reducesTo_S65536x256_S65536_d1 h_S_ (ix1 n)
      = ∑ k : Fin 256, x (ix2 n k) := by
  have h : S65536x256.Reduces [1] S65536 := by decide
  simp only [Host.reduceAdd, Ideal.hostReduceAdd_def]
  rw [Ideal.hostReduceAdd_single reducesTo_S65536x256_S65536_d1 h]
  show Ideal.ofBits .f32 0x00000000#32 + _ = _
  rw [Ideal.ofBits_zero_f32, zero_add]
  exact Finset.sum_congr rfl fun k _ => congrArg x (lift_row h n k)

/-- The host's sum over both axes from the zero word: the double sum over rows and columns. -/
theorem total2_apply (x : FVec Ideal S65536x256 .f32) (j : S_.Idx) :
    Host.reduceAdd x (constant S_ .f32 0x00000000#32) reducesTo_S65536x256_S_d0_1 h_S_ j
      = ∑ n : Fin 65536, ∑ k : Fin 256, x (ix2 n k) := by
  simp only [Host.reduceAdd, Ideal.hostReduceAdd_def]
  rw [Ideal.hostReduceAdd_total reducesTo_S65536x256_S_d0_1 (fun b => b.elim0)]
  show Ideal.ofBits .f32 0x00000000#32 + _ = _
  rw [Ideal.ofBits_zero_f32, zero_add]
  exact sum_idx2 x

/-- The host's sum of a length-65536 vector from the zero word: the sum over the rows. -/
theorem total1_apply (v : FVec Ideal S65536 .f32) (j : S_.Idx) :
    Host.reduceAdd v (constant S_ .f32 0x00000000#32) reducesTo_S65536_S_d0 h_S_ j
      = ∑ n : Fin 65536, v (ix1 n) := by
  simp only [Host.reduceAdd, Ideal.hostReduceAdd_def]
  rw [Ideal.hostReduceAdd_total reducesTo_S65536_S_d0 (fun b => b.elim0)]
  show Ideal.ofBits .f32 0x00000000#32 + _ = _
  rw [Ideal.ofBits_zero_f32, zero_add]
  exact sum_idx1 v

/-! ## The pointwise host operations at an index, at the ideal values -/

theorem hexp_apply {s : Shape} {φ : FTy} (x : FVec Ideal s φ) (i : s.Idx) : Host.exp x i = Ideal.exp (x i) := rfl
theorem hlog_apply {s : Shape} {φ : FTy} (x : FVec Ideal s φ) (i : s.Idx) : Host.log x i = Ideal.log (x i) := rfl
theorem hdivf_apply {s : Shape} {φ : FTy} (x y : FVec Ideal s φ) (i : s.Idx) : Host.divf x y i = Ideal.div (x i) (y i) := rfl

/-- The word 0xFF800000 is -inf. -/
theorem ofBits_neg_inf : Ideal.ofBits .f32 0xFF800000#32 = (⊥ : EReal) := by simp [Ideal.ofBits, Ideal.ieee]

/-- The maximum with the splat of -inf is the vector itself. -/
theorem max_ninf_apply (v : FVec Ideal S65536 .f32) (n : Fin 65536) :
    maximumf (broadcastInDim S65536 ![] bcast_S_S65536 (constant S_ .f32 0xFF800000#32)) v (ix1 n) = v (ix1 n) := by
  rw [maximumf_apply, broadcastInDim_apply _ bcast_S_S65536 _ (ix1 n) ix0 (fun a => a.elim0), constant_apply,
    ofBits_neg_inf, max_bot_left]

/-- The host's reduce with a maximum body over the columns from -inf, at row n: the fold of max over the row. -/
theorem hostMax_apply (Z : FVec Ideal S65536x256 .f32) (n : Fin 65536) :
    Host.reduce FloatOps.maximumf Z (constant S_ .f32 0xFF800000#32) reducesTo_S65536x256_S65536_d1 h_S_ (ix1 n)
      = (Finset.univ : Finset (Fin 256)).fold max (⊥ : EReal) (fun k => Z (ix2 n k)) := by
  have h : S65536x256.Reduces [1] S65536 := by decide
  rw [Host.reduce_eq_fold_single FloatOps.maximumf Z _ reducesTo_S65536x256_S65536_d1 h h_S_, constant_apply, ofBits_neg_inf]
  have hf : (Z ∘ h.lift (ix1 n)) = fun k : Fin 256 => Z (ix2 n k) := funext fun k => congrArg Z (lift_row h n k)
  exact congrArg (fun f => Finset.fold max (⊥ : EReal) f (Finset.univ : Finset (Fin 256))) hf

/-! ## The stages of the log-softmax and of the pairwise term, as arrays -/

/-- The row maxima: max of -inf and the fold of max over the columns from -inf. -/
def mxV (Z : FVec Ideal S65536x256 .f32) : FVec Ideal S65536 .f32 :=
  maximumf (broadcastInDim S65536 ![] bcast_S_S65536 (constant S_ .f32 0xFF800000#32))
    (Host.reduce FloatOps.maximumf Z (constant S_ .f32 0xFF800000#32) reducesTo_S65536x256_S65536_d1 h_S_)

/-- The shifted entries Z - M, the maxima broadcast back through a column. -/
def shV (Z : FVec Ideal S65536x256 .f32) : FVec Ideal S65536x256 .f32 :=
  subf Z (broadcastInDim S65536x256 ![0, 1] bcast_S65536x1_S65536x256_0_1
    (broadcastInDim S65536x1 ![0] bcast_S65536_S65536x1_0 (mxV Z)))

/-- The rows' sums of exponentials of the shifted entries. -/
def seV (Z : FVec Ideal S65536x256 .f32) : FVec Ideal S65536 .f32 :=
  Host.reduceAdd (Host.exp (shV Z)) (constant S_ .f32 0x00000000#32) reducesTo_S65536x256_S65536_d1 h_S_

/-- The log-softmax: shifted minus the log of the row's sum of exponentials. -/
def lfV (Z : FVec Ideal S65536x256 .f32) : FVec Ideal S65536x256 .f32 :=
  subf (shV Z) (broadcastInDim S65536x256 ![0, 1] bcast_S65536x1_S65536x256_0_1
    (Host.log (broadcastInDim S65536x1 ![0] bcast_S65536_S65536x1_0 (seV Z))))

/-- The pairwise result: (256 * total of p * lf - total over rows of (row sum of p) * (row sum of lf)) / 65536. -/
def klV (L : FVec Ideal S65536x256 .f32) : FVec Ideal S_ .f32 :=
  Host.divf
    (subf
      (mulf (constant S_ .f32 0x43800000#32)
        (Host.reduceAdd (mulf (Host.exp L) L) (constant S_ .f32 0x00000000#32) reducesTo_S65536x256_S_d0_1 h_S_))
      (Host.reduceAdd
        (mulf
          (Host.reduceAdd (Host.exp L) (constant S_ .f32 0x00000000#32) reducesTo_S65536x256_S65536_d1 h_S_)
          (Host.reduceAdd L (constant S_ .f32 0x00000000#32) reducesTo_S65536x256_S65536_d1 h_S_))
        (constant S_ .f32 0x00000000#32) reducesTo_S65536_S_d0 h_S_))
    (constant S_ .f32 0x47800000#32)

/-! ## The stages read at an index, as the spec's row functions -/

section Read
variable (Z : FVec Ideal S65536x256 .f32)

/-- Row n's maximum is the spec's rowMax. -/
theorem mxV_apply (n : Fin 65536) : mxV Z (ix1 n) = Cert.Xmi.rowMax (fun n k => Z (ix2 n k)) n := by
  unfold mxV
  rw [max_ninf_apply, hostMax_apply]
  rfl

/-- The shifted entry is the spec's sh. -/
theorem shV_apply (n : Fin 65536) (k : Fin 256) : shV Z (ix2 n k) = Cert.Xmi.sh (fun n k => Z (ix2 n k)) n k := by
  unfold shV
  rw [subf_apply, bc2_apply, bc1_apply, mxV_apply]
  rfl

/-- The row's sum of exponentials. -/
theorem seV_apply (n : Fin 65536) :
    seV Z (ix1 n) = ∑ k : Fin 256, Ideal.exp (Cert.Xmi.sh (fun n k => Z (ix2 n k)) n k) := by
  unfold seV
  rw [rowSum_apply]
  exact Finset.sum_congr rfl fun k _ => by rw [hexp_apply, shV_apply]

/-- The log-softmax entry is the spec's lf. -/
theorem lfV_apply (n : Fin 65536) (k : Fin 256) : lfV Z (ix2 n k) = Cert.Xmi.lf (fun n k => Z (ix2 n k)) n k := by
  unfold lfV
  rw [subf_apply, bc2_apply, hlog_apply, bc1_apply, seV_apply, shV_apply]
  rfl

end Read

/-- Over an array L whose entries are the spec's lf, the pairwise result is the spec's, with the row sum of lf
    taken directly. -/
theorem klV_apply (L : FVec Ideal S65536x256 .f32) (Z' : Fin 65536 → Fin 256 → EReal)
    (hL : ∀ n k, L (ix2 n k) = Cert.Xmi.lf Z' n k) (j : S_.Idx) :
    klV L j = Ideal.div (Cert.Xmi.c256 * Cert.Xmi.term1 Z' - Cert.Xmi.term2R Z') Cert.Xmi.c65536 := by
  unfold klV
  rw [hdivf_apply, subf_apply, mulf_apply, constant_apply, constant_apply, total2_apply, total1_apply]
  have e1 : (∑ n : Fin 65536, ∑ k : Fin 256, mulf (Host.exp L) L (ix2 n k)) = Cert.Xmi.term1 Z' := by
    unfold Cert.Xmi.term1
    refine Finset.sum_congr rfl fun n _ => Finset.sum_congr rfl fun k _ => ?_
    rw [mulf_apply, hexp_apply, hL]
    rfl
  have e2 : (∑ n : Fin 65536, mulf
          (Host.reduceAdd (Host.exp L) (constant S_ .f32 0x00000000#32) reducesTo_S65536x256_S65536_d1 h_S_)
          (Host.reduceAdd L (constant S_ .f32 0x00000000#32) reducesTo_S65536x256_S65536_d1 h_S_) (ix1 n))
      = Cert.Xmi.term2R Z' := by
    unfold Cert.Xmi.term2R
    refine Finset.sum_congr rfl fun n _ => ?_
    rw [mulf_apply, rowSum_apply, rowSum_apply]
    have a1 : (∑ k : Fin 256, Host.exp L (ix2 n k)) = ∑ c : Fin 256, Cert.Xmi.pr Z' n c :=
      Finset.sum_congr rfl fun k _ => by rw [hexp_apply, hL]; rfl
    have a2 : (∑ k : Fin 256, L (ix2 n k)) = ∑ c : Fin 256, Cert.Xmi.lf Z' n c :=
      Finset.sum_congr rfl fun k _ => hL n k
    rw [a1, a2]
  rw [e1, e2]

/-! ## The fold, opened in three stretches -/

/-- The contents after two stretches of operations are those after the second, from those after the first. -/
theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, after_cons, after_cons, after_app l₁ l₂]

/-- The first stretch (the picked-score result) leaves the features where they were. -/
theorem afterA (V : Valuation τ sig (Elt Ideal)) :
    StableHlo.after opsA V (Proc.devRef .tc main_arg2) = V (Proc.devRef .tc main_arg2) := by
  after_results_simp

/-- The second stretch (the log-softmax) writes the log-softmax array of the features. -/
theorem afterB (V : Valuation τ sig (Elt Ideal)) :
    StableHlo.after opsB V (Proc.devRef .tc main_v6) = lfV (V (Proc.devRef .tc main_arg2)) := by
  rw [opsB_eq]
  unfold lfV seV shV mxV
  after_results_simp

/-- The third stretch writes the pairwise result of the log-softmax array. -/
theorem afterC (V : Valuation τ sig (Elt Ideal)) :
    StableHlo.after opsC V (Proc.devRef .tc main_v16) = klV (V (Proc.devRef .tc main_v6)) := by
  unfold klV
  after_results_simp

/-- With every feature a real number, the reference's third result is the spec's lossKl of the launch array. -/
theorem ref_kl (hZ : ∀ i, ∃ r : ℝ, m ((c.tc : Thread nD τ).loc main_arg2) i = (r : EReal)) :
    StableHlo.after ops (launchContents m c) (Proc.devRef .tc main_v16)
      = fun _ => Cert.Xmi.lossKl (fun (n : Fin 65536) (k : Fin 256) => m ((c.tc : Thread nD τ).loc main_arg2) (ix2 n k)) := by
  rw [ops_split, after_app, after_app, afterC, afterB, afterA]
  funext j
  rw [klV_apply _ _ (lfV_apply _) j, ← Cert.Xmi.term2K_eq_term2R _ (fun n k => hZ (ix2 n k))]
  rfl

end Cert.ReferenceIdeal.RefKl

end
-- ==== Proof.RefLoss.lean ====
/-
  The reference's first result is 1 * (its second result) + 0.2 * (its third), scalar by scalar; with the other two
  read as the spec's lossNll and lossKl it is the spec's loss.
-/
import proofs.«401249_j45887430590815_3_alg».proof.Proof.RefRun
import proofs.«401249_j45887430590815_3_alg».proof.Proof.Spec
import proofs.«401249_j45887430590815_3_alg».proof.Proof.Math
import proofs.«401249_j45887430590815_3_alg».proof.Proof.RefNll
import proofs.«401249_j45887430590815_3_alg».proof.Proof.RefKl
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefLoss

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The combined loss is built from the other two results by the host's last five lines. -/
theorem loss_fold :
    @Eq (FVec Ideal S_ .f32) (StableHlo.after ops (launchContents m c) (Proc.devRef .tc main_v19))
      (addf (F := Ideal) (mulf (F := Ideal) (constant S_ .f32 0x3F800000#32)
          (show FVec Ideal S_ .f32 from StableHlo.after ops (launchContents m c) (Proc.devRef .tc main_v5)))
        (mulf (F := Ideal) (constant S_ .f32 0x3E4CCCCD#32)
          (show FVec Ideal S_ .f32 from StableHlo.after ops (launchContents m c) (Proc.devRef .tc main_v16)))) := by
  after_results_simp

/-- The launch arrays as the specification takes them. -/
abbrev X : Fin 65536 → Fin 1000 → EReal := fun n k => m ((c.tc : Thread nD τ).loc main_arg0) (ix2 n k)
abbrev T : Fin 65536 → BitVec 32 := fun n => m ((c.tc : Thread nD τ).loc main_arg1) (ix1 n)
abbrev Z : Fin 65536 → Fin 256 → EReal := fun n k => m ((c.tc : Thread nD τ).loc main_arg2) (ix2 n k)

/-- With the labels in range and the features real, the reference's first result is the specification's loss. -/
theorem ref_loss
    (hT : ∀ n : Fin 65536, ∃ t : Fin 1000, m ((c.tc : Thread nD τ).loc main_arg1) (ix1 n) = BitVec.ofNat 32 t.val)
    (hZ : ∀ i, ∃ r : ℝ, m ((c.tc : Thread nD τ).loc main_arg2) i = (r : EReal)) :
    StableHlo.after ops (launchContents m c) (Proc.devRef .tc main_v19)
      = fun _ => Cert.Xmi.loss (X m c) (T m c) (Z m c) := by
  refine (loss_fold m c).trans ?_
  rw [Cert.ReferenceIdeal.RefNll.ref_nll m c hT, Cert.ReferenceIdeal.RefKl.ref_kl m c hZ]
  rfl

/-- Every weakly fair execution of the idealized reference terminates with the three results at the specification's
    values of the launch arrays (labels in range, features real), and the arguments unchanged. -/
theorem run (ρ : Dev nD → PrngReg)
    (hT : ∀ (c : Dev nD) (n : Fin 65536), ∃ t : Fin 1000, m ((c.tc : Thread nD τ).loc main_arg1) (ix1 n) = BitVec.ofNat 32 t.val)
    (hZ : ∀ (c : Dev nD) i, ∃ r : ℝ, m ((c.tc : Thread nD τ).loc main_arg2) i = (r : EReal)) :
    θ_run defs (onTc (τ := τ) (main (F := Ideal))) ⟨m, fun _ => 0, ρ⟩ (fun r => ∀ c : Dev nD,
      r.2.mem ((c.tc : Thread nD τ).loc main_v19) = (fun _ => Cert.Xmi.loss (X m c) (T m c) (Z m c))
      ∧ r.2.mem ((c.tc : Thread nD τ).loc main_v5) = (fun _ => Cert.Xmi.lossNll (X m c) (T m c))
      ∧ r.2.mem ((c.tc : Thread nD τ).loc main_v16) = (fun _ => Cert.Xmi.lossKl (Z m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c).1.trans (ref_loss m c (hT c) (hZ c)),
       (h c).2.1.trans (Cert.ReferenceIdeal.RefNll.ref_nll m c (hT c)),
       (h c).2.2.1.trans (Cert.ReferenceIdeal.RefKl.ref_kl m c (hZ c)),
       (h c).2.2.2⟩)
    (Cert.ReferenceIdeal.ValueP.run m ρ)

end Cert.ReferenceIdeal.RefLoss

end
-- ==== Proof.lean ====
/-
  The claim. The kernel computes a cross-entropy term and a pairwise-KL term of 65536 rows with two pallas_calls,
  each splitting the rows into two halves and accumulating per-block totals in one cell of a tile per half; the
  reference computes the same two numbers with whole-array jnp operations. Both programs, read at the ideal values,
  end with the specification's three numbers (Proof/Spec.lean):
    lossNll = (-(sum over rows of the row's score at its label)) / 65536,
    lossKl  = (256 * sum(p * lf) - sum over rows of (row sum of p) * (row sum of lf)) / 65536,
    loss    = 1 * lossNll + 0.2 * lossKl.
  Two facts about the inputs are used, both from the precondition: every label is a class index in [0, 1000) (the
  kernel's one-hot mask picks exactly the labelled score, and the reference's gather reads inside the row), and every
  feature is a real number (the kernel writes a row's sum of lf as (sum of shifted) - 256 * L, which is the plain sum
  only away from the infinities). The association of the sums - rows inside a block, blocks inside a half, the two
  halves - is immaterial on the extended reals.
  The three frames are the generated ones (the reference's: its run with the results dropped); the ideal pass rewrote
  nothing, so `preserves` is trivial.
-/
import proofs.«401249_j45887430590815_3_alg».proof.Defs
import proofs.«401249_j45887430590815_3_alg».proof.Proof.Gen.Kernel
import proofs.«401249_j45887430590815_3_alg».proof.Proof.Gen.Kernel.Skeleton
import proofs.«401249_j45887430590815_3_alg».proof.Proof.Gen.Kernel.Launch
import proofs.«401249_j45887430590815_3_alg».proof.Proof.Gen.Kernel.Points
import proofs.«401249_j45887430590815_3_alg».proof.Proof.Gen.Kernel.Frame
import proofs.«401249_j45887430590815_3_alg».proof.Proof.Gen.KernelIdeal
import proofs.«401249_j45887430590815_3_alg».proof.Proof.Gen.KernelIdeal.Skeleton
import proofs.«401249_j45887430590815_3_alg».proof.Proof.Gen.KernelIdeal.Launch
import proofs.«401249_j45887430590815_3_alg».proof.Proof.Gen.KernelIdeal.Points
import proofs.«401249_j45887430590815_3_alg».proof.Proof.Gen.KernelIdeal.Frame
import proofs.«401249_j45887430590815_3_alg».proof.Proof.Gen.ReferenceIdeal
import proofs.«401249_j45887430590815_3_alg».proof.Proof.Gen.Pre_finite_inputs
import proofs.«401249_j45887430590815_3_alg».proof.Proof.PreDecode
import proofs.«401249_j45887430590815_3_alg».proof.Proof.KValue
import proofs.«401249_j45887430590815_3_alg».proof.Proof.RefLoss
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- Both programs end at the specification's three numbers of arguments that agree. -/
theorem algebraic : Cert.algebraic_KernelIdeal_ReferenceIdeal := by
  intro m ρ m' ρ' hpre hagree
  -- the precondition, read on the kernel's memory: real scores, real features, labels in range
  have hdec := fun c : Dev Cert.KernelIdeal.nD =>
    Cert.Xmi.pre_decode (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (hpre c)
  -- the same facts on the reference's memory, whose arguments agree
  have hT' : ∀ (c : Dev Cert.ReferenceIdeal.nD) (n : Fin 65536), ∃ t : Fin 1000,
      m' ((c.tc : Thread Cert.ReferenceIdeal.nD Cert.ReferenceIdeal.τ).loc Cert.ReferenceIdeal.main_arg1) (ix1 n) = BitVec.ofNat 32 t.val :=
    fun c n => by rw [(hagree c).2.1]; exact (hdec c).2.2 n
  have hZ' : ∀ (c : Dev Cert.ReferenceIdeal.nD) i, ∃ r : ℝ,
      m' ((c.tc : Thread Cert.ReferenceIdeal.nD Cert.ReferenceIdeal.τ).loc Cert.ReferenceIdeal.main_arg2) i = (r : EReal) :=
    fun c i => by rw [(hagree c).2.2]; exact (hdec c).2.1 i
  refine ⟨fun c _ => Cert.Xmi.loss (Cert.KernelIdeal.KValue.X m c) (Cert.KernelIdeal.KValue.T m c) (Cert.KernelIdeal.KValue.Z m c),
    fun c _ => Cert.Xmi.lossNll (Cert.KernelIdeal.KValue.X m c) (Cert.KernelIdeal.KValue.T m c),
    fun c _ => Cert.Xmi.lossKl (Cert.KernelIdeal.KValue.Z m c),
    Cert.KernelIdeal.KValue.run m ρ, ?_⟩
  refine (θ_run Cert.ReferenceIdeal.defs _ _).mono (fun _ h c => ?_) (Cert.ReferenceIdeal.RefLoss.run m' ρ' hT' hZ')
  have hX : Cert.ReferenceIdeal.RefLoss.X m' c = Cert.KernelIdeal.KValue.X m c := by
    funext n k; exact congrFun (hagree c).1 (ix2 n k)
  have hT : Cert.ReferenceIdeal.RefLoss.T m' c = Cert.KernelIdeal.KValue.T m c := by
    funext n; exact congrFun (hagree c).2.1 (ix1 n)
  have hZ : Cert.ReferenceIdeal.RefLoss.Z m' c = Cert.KernelIdeal.KValue.Z m c := by
    funext n k; exact congrFun (hagree c).2.2 (ix2 n k)
  have h' := h c
  rw [hX, hT, hZ] at h'
  exact h'

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
